-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S1x2048x256 : Shape := ⟨3, ![1, 2048, 256]⟩
abbrev S2048x256 : Shape := ⟨2, ![2048, 256]⟩
abbrev S1x256 : Shape := ⟨2, ![1, 256]⟩
abbrev S8x2048x2048 : Shape := ⟨3, ![8, 2048, 2048]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩

abbrev nBuf : Space → Nat
  | .hbm => 8
  | .vmem => 20
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x2048x256, .bf16⟩
  | .hbm, ⟨6, _⟩ => ⟨S8x2048x256, .bf16⟩
  | .hbm, ⟨7, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x512, .f32⟩
  | .local _ .vmem, ⟨19, _⟩ => ⟨S1x512x512, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond1 (i : grid1.Coords) : BitVec 1 :=
  let arg1 : BitVec 32 := BitVec.ofNat 32 (i 1).val
  let arg2 : BitVec 32 := BitVec.ofNat 32 (i 2).val
  let v23 : BitVec 1 := Scalar.cmpi .eq arg1 arg2
  let v24 : BitVec 32 := Scalar.extui v23
  let c0_i32 : BitVec 32 := 0#32
  let v25 : BitVec 1 := Scalar.cmpi .ne v24 c0_i32
  v25

def k1_cond2 (i : grid1.Coords) : BitVec 1 :=
  let arg1 : BitVec 32 := BitVec.ofNat 32 (i 1).val
  let arg2 : BitVec 32 := BitVec.ofNat 32 (i 2).val
  let v26 : BitVec 1 := Scalar.cmpi .ne arg1 arg2
  let v27 : BitVec 32 := Scalar.extui v26
  let c0_i32_15 : BitVec 32 := 0#32
  let v28 : BitVec 1 := Scalar.cmpi .ne v27 c0_i32_15
  v28

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  transposes_S512x512_p1_0_S512x512 : S512x512.Transposes [1, 0] S512x512
  iota_S512x512_d0_w32 : S512x512.Iotas .tc 32 [0]
  iota_S512x512_d1_w32 : S512x512.Iotas .tc 32 [1]
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x256_S256x256_S2048x256_1_0_0_1_n_n_wf : DotDims.WF S2048x256 S256x256 S2048x256 [1] [0] [0] [1] [] []
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x256.size a
  hwx0_5 : ∀ i : grid0.Coords, EltTy.bits .bf16 = 32 ∨ (Rect.block (s := S8x2048x256) S1x2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S8x2048x256.size a
  hwx0_6 : ∀ i : grid0.Coords, EltTy.bits .bf16 = 32 ∨ (Rect.block (s := S8x2048x256) S1x2048x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x2048x256.size a
  hwx1_0 : ∀ i : grid1.Coords, EltTy.bits .bf16 = 32 ∨ (Rect.block (s := S8x2048x256) S1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x2048x256.size a
  hwx1_1 : ∀ i : grid1.Coords, EltTy.bits .bf16 = 32 ∨ (Rect.block (s := S8x2048x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S8x2048x256.size a
  hwx1_2 : ∀ i : grid1.Coords, EltTy.bits .bf16 = 32 ∨ (Rect.block (s := S8x2048x256) S1x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S8x2048x256.size a
  hwx1_3 : ∀ i : grid1.Coords, EltTy.bits .bf16 = 32 ∨ (Rect.block (s := S8x2048x256) S1x512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S8x2048x2048.size a
  hwx1_4 : ∀ i : grid1.Coords, EltTy.bits .f32 = 32 ∨ (Rect.block (s := S8x2048x2048) S1x512x512.size (cc1_transform_4 i) (hinb1_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048x2048 : Shape := ⟨3, ![8, 2048, 2048]⟩
abbrev S2048x2048 : Shape := ⟨2, ![2048, 2048]⟩
abbrev S1x2048x2048 : Shape := ⟨3, ![1, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x2048x256, .f32⟩
  | .hbm, ⟨6, _⟩ => ⟨S1x1x256, .f32⟩
  | .hbm, ⟨7, _⟩ => ⟨S8x2048x256, .f32⟩
  | .hbm, ⟨8, _⟩ => ⟨S8x2048x256, .f32⟩
  | .hbm, ⟨9, _⟩ => ⟨S_, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S1x1x256, .f32⟩
  | .hbm, ⟨14, _⟩ => ⟨S8x2048x256, .f32⟩
  | .hbm, ⟨15, _⟩ => ⟨S8x2048x256, .f32⟩
  | .hbm, ⟨16, _⟩ => ⟨S_, .f32⟩
  | .hbm, ⟨17, _⟩ => ⟨S8x2048x256, .f32⟩
  | .hbm, ⟨18, _⟩ => ⟨S8x2048x256, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S8x2048x2048, .f32⟩
  | .hbm, ⟨49, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  bcast_S_S8x2048x2048 : S_.BroadcastsInDim S8x2048x2048 (![] : Fin 0 → Fin S8x2048x2048.rank)
  transposes_S8x2048x2048_S8x2048x2048_0_2_1 : S8x2048x2048.Transposes [0, 2, 1] S8x2048x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.KB.Data.lean ====
/-
  The proof data of the two kernel regions, at the buffer contents `V` each region is entered from.

  Region 0 (the projections, one grid point per batch): the block of `X` at the point, the two weight matrices and
  the two biases are read whole; each of the two output blocks is written whole, once, with the body's value of them.
  Region 1 (the symmetrized weights, grid `batch × row tile × column tile`): four blocks of the projections are read
  whole — the queries' and keys' blocks of the row tile and of the column tile, two windows onto each array —; the output
  block is written whole, once: with the diagonal cleared where the two tiles coincide, as computed elsewhere.
  Two windows of region 1 read one array, so each of those arrays is held by halves, one half per window.
-/
import proofs.«134656_j32298154066180_1_alg».proof.Proof.Gen.Kernel.Launch
import proofs.«134656_j32298154066180_1_alg».proof.Proof.Gen.Kernel.Skeleton
import proofs.«134656_j32298154066180_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projections -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S1x2048x256 := Rect.unit (s := S1x2048x256) ![0, 0, 0] S1x2048x256.size Facts₀.inb_S1x2048x256_S1x2048x256_0_0_0
abbrev rW : Rect S256x256 := Rect.unit (s := S256x256) ![0, 0] S256x256.size Facts₀.inb_S256x256_S256x256_0_0
abbrev rB : Rect S256 := Rect.unit (s := S256) ![0] S256.size Facts₀.inb_S256_S256_0

/-- The queries' output buffer after the body: its one store, of the body's value of the loaded blocks. -/
def out0_5 (x : Vec F S1x2048x256 .f32) (w : Vec F S256x256 .f32) (b : Vec F S256 .f32) : Vec F S1x2048x256 .bf16 :=
  View.canon [⟨rX, k0_pay2 (View.ld x rX) (View.ld w rW) (View.ld b rB)⟩]
/-- The keys' output buffer after the body. -/
def out0_6 (x : Vec F S1x2048x256 .f32) (w : Vec F S256x256 .f32) (b : Vec F S256 .f32) : Vec F S1x2048x256 .bf16 :=
  View.canon [⟨rX, k0_pay3 (View.ld x rX) (View.ld w rW) (View.ld b rB)⟩]

/-- The one store covers its buffer. -/
theorem cover0 (p0 : Vec F S1x2048x256 .bf16) (y : S1x2048x256.Idx) :
    ∃ pc ∈ ([⟨rX, p0⟩] : List (View.Piece (Elt F) S1x2048x256 .bf16)), y ∈ pc.1.set :=
  View.cover_of_tiled [⟨rX, p0⟩] S1x2048x256.size (by rfl) y

/-- Region 0's proof data on core `c`: every input's buffer left at its block, each output's at the body's value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

/-! # Region 1: the symmetrized weights -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT : Rect S1x512x256 := Rect.unit (s := S1x512x256) ![0, 0, 0] S1x512x256.size Facts₀.inb_S1x512x256_S1x512x256_0_0_0
abbrev rO : Rect S1x512x512 := Rect.unit (s := S1x512x512) ![0, 0, 0] S1x512x512.size Facts₀.inb_S1x512x512_S1x512x512_0_0_0

/-- The output buffer after the body where the row tile and the column tile coincide: the diagonal cleared. -/
def out1_4A (qi kj qj ki : Vec F S1x512x256 .bf16) : Vec F S1x512x512 .f32 :=
  View.canon [⟨rO, k1_pay2 (View.ld qi rT) (View.ld kj rT) (View.ld qj rT) (View.ld ki rT)⟩]
/-- The output buffer after the body where they differ. -/
def out1_4B (qi kj qj ki : Vec F S1x512x256 .bf16) : Vec F S1x512x512 .f32 :=
  View.canon [⟨rO, k1_pay3 (View.ld qi rT) (View.ld kj rT) (View.ld qj rT) (View.ld ki rT)⟩]

theorem cover1 (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

/-- The two tiles of a point coincide or differ: exactly one of the body's two branches is taken. -/
theorem cond_cases : ∀ t : Fin cfg1.N,
    (k1_cond1 (grid1.coords t) = 1#1 ∧ ¬ k1_cond2 (grid1.coords t) = 1#1)
      ∨ (¬ k1_cond1 (grid1.coords t) = 1#1 ∧ k1_cond2 (grid1.coords t) = 1#1) :=
  (by decide +kernel : ∀ t : Fin grid1.N,
    (k1_cond1 (grid1.coords t) = 1#1 ∧ ¬ k1_cond2 (grid1.coords t) = 1#1)
      ∨ (¬ k1_cond1 (grid1.coords t) = 1#1 ∧ k1_cond2 (grid1.coords t) = 1#1))

/-- The halves the two windows onto one array hold it by. -/
abbrev q1 : Fin cfg1.W → PosShare TreeShare := fun
  | ⟨0, _⟩ => fullShare.left
  | ⟨1, _⟩ => fullShare.left
  | ⟨2, _⟩ => fullShare.right
  | ⟨3, _⟩ => fullShare.right
  | ⟨4, _⟩ => fullShare

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => if k1_cond1 (grid1.coords t) = 1#1
        then out1_4A (iblk1 V c 0 t) (iblk1 V c 1 t) (iblk1 V c 2 t) (iblk1 V c 3 t)
        else out1_4B (iblk1 V c 0 t) (iblk1 V c 1 t) (iblk1 V c 2 t) (iblk1 V c 3 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = if k1_cond1 (grid1.coords t) = 1#1
        then out1_4A (iblk1 V c 0 t) (iblk1 V c 1 t) (iblk1 V c 2 t) (iblk1 V c 3 t)
        else out1_4B (iblk1 V c 0 t) (iblk1 V c 1 t) (iblk1 V c 2 t) (iblk1 V c 3 t) := by dsimp only [dat1]

end Cert.Kernel.Hand

end
-- ==== Proof.KB.Body0.lean ====
/-
  Region 0's body at every grid point: from the five input blocks in their staging buffers the projection kernel
  leaves the inputs as they were and each output buffer at the body's value of them.
-/
import proofs.«134656_j32298154066180_1_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What the body finds in each input window's buffer -/

/-- Input window 0 (the block of `X`) is read whole and left in place, so its current staging buffer holds its block at
    every point, whether the point fetches it or the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun s => by rw [after0_0]; unfold Dat.blockOf iblk0; rw [A_eq0]; try rfl) t d).trans
    (by unfold Dat.fetched Dat.blockOf iblk0; rw [A_eq0]; try rfl)

/-- Input window 1 (the queries' weights) is read whole and left in place, so its current staging buffer holds its block at
    every point, whether the point fetches it or the block index has not moved since the last fetch. -/
theorem before0_1 (c : Dev nD) (t : Fin cfg0.N) (d) : (dat0 V c).before 1 t d = iblk0 V c 1 t :=
  ((dat0 V c).before_in_eq_fetched 1 rfl (fun _ => rfl) (fun _ _ _ => rfl)
    (fun s => by rw [after0_1]; unfold Dat.blockOf iblk0; rw [A_eq0]; try rfl) t d).trans
    (by unfold Dat.fetched Dat.blockOf iblk0; rw [A_eq0]; try rfl)

/-- Input window 2 (the queries' bias) is read whole and left in place, so its current staging buffer holds its block at
    every point, whether the point fetches it or the block index has not moved since the last fetch. -/
theorem before0_2 (c : Dev nD) (t : Fin cfg0.N) (d) : (dat0 V c).before 2 t d = iblk0 V c 2 t :=
  ((dat0 V c).before_in_eq_fetched 2 rfl (fun _ => rfl) (fun _ _ _ => rfl)
    (fun s => by rw [after0_2]; unfold Dat.blockOf iblk0; rw [A_eq0]; try rfl) t d).trans
    (by unfold Dat.fetched Dat.blockOf iblk0; rw [A_eq0]; try rfl)

/-- Input window 3 (the keys' weights) is read whole and left in place, so its current staging buffer holds its block at
    every point, whether the point fetches it or the block index has not moved since the last fetch. -/
theorem before0_3 (c : Dev nD) (t : Fin cfg0.N) (d) : (dat0 V c).before 3 t d = iblk0 V c 3 t :=
  ((dat0 V c).before_in_eq_fetched 3 rfl (fun _ => rfl) (fun _ _ _ => rfl)
    (fun s => by rw [after0_3]; unfold Dat.blockOf iblk0; rw [A_eq0]; try rfl) t d).trans
    (by unfold Dat.fetched Dat.blockOf iblk0; rw [A_eq0]; try rfl)

/-- Input window 4 (the keys' bias) is read whole and left in place, so its current staging buffer holds its block at
    every point, whether the point fetches it or the block index has not moved since the last fetch. -/
theorem before0_4 (c : Dev nD) (t : Fin cfg0.N) (d) : (dat0 V c).before 4 t d = iblk0 V c 4 t :=
  ((dat0 V c).before_in_eq_fetched 4 rfl (fun _ => rfl) (fun _ _ _ => rfl)
    (fun s => by rw [after0_4]; unfold Dat.blockOf iblk0; rw [A_eq0]; try rfl) t d).trans
    (by unfold Dat.fetched Dat.blockOf iblk0; rw [A_eq0]; try rfl)

/-! # The kernel's triple -/

set_option maxHeartbeats 1000000 in
/-- The projection kernel on whole staging memrefs — the five inputs' at read contents `x0 … x4`, the two outputs' at
    anything — runs to the continuation holding the inputs' as they were, the queries' output at `out0_5 x0 x1 x2` and
    the keys' at `out0_6 x0 x3 x4`. The kernel loads each output buffer before its one store; the loaded values are
    unused, and the store, covering the buffer, decides its contents. -/
theorem sound_kernel0 (c : Dev nD) (E : Set ℕ) (i : grid0.Coords)
    (arg1 : Memref sig .tc .vmem S1x2048x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x256 .f32) (harg4 : arg4.IsWhole)
    (arg5 : Memref sig .tc .vmem S256 .f32) (harg5 : arg5.IsWhole)
    (arg6 : Memref sig .tc .vmem S1x2048x256 .bf16) (harg6 : arg6.IsWhole)
    (arg7 : Memref sig .tc .vmem S1x2048x256 .bf16) (harg7 : arg7.IsWhole)
    (x0 : Vec F S1x2048x256 .f32) (x1 : Vec F S256x256 .f32) (x2 : Vec F S256 .f32)
    (x3 : Vec F S256x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2)
            ∗ owns (c : Thread nD τ) arg7 fullShare (out0_6 x0 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! # The body obligation, at a generic point -/

/-- What the body is called with at point `t`: the invariant, what the core owes, and each window's current staging
    buffer at what it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at point `t`: the same invariant and dues, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the five inputs' buffers hold their blocks (`before0_w`), so the kernel's triple applies at
    those blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  Region 1's body at every grid point: from the four input blocks in their staging buffers the kernel leaves the
  inputs as they were and the output buffer at the symmetrized weights of the tile, the diagonal cleared where the
  row tile and the column tile coincide.
-/
import proofs.«134656_j32298154066180_1_alg».proof.Proof.KB.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The output window is idle at no point: one of the body's two stores into it is taken at each. -/
theorem idle_false (t : Fin cfg1.N) : cfg1.idle 4 (cfg1.grid.coords t) = false := by
  show (!(k1_cond1 (grid1.coords t) == 1#1) && !(k1_cond2 (grid1.coords t) == 1#1)) = false
  rcases cond_cases t with ⟨h1, _⟩ | ⟨_, h2⟩
  · rw [h1]; rfl
  · rw [h2]; simp

/-! ## The kernel's triples, one per case of the two tiles -/

set_option maxHeartbeats 1000000 in
/-- The kernel where the row tile and the column tile coincide, on whole staging memrefs — the four inputs' at their
    contents, the output's at anything —: the inputs are left as they were and the output holds its one store, the
    symmetrized weights with the diagonal cleared. -/
theorem sound_kernel1_A (c : Dev nD) (E : Set ℕ) (i : grid1.Coords)
    (arg3 : Memref sig .tc .vmem S1x512x256 .bf16) (harg3 : arg3.IsWhole) (arg4 : Memref sig .tc .vmem S1x512x256 .bf16) (harg4 : arg4.IsWhole)
    (arg5 : Memref sig .tc .vmem S1x512x256 .bf16) (harg5 : arg5.IsWhole) (arg6 : Memref sig .tc .vmem S1x512x256 .bf16) (harg6 : arg6.IsWhole)
    (arg7 : Memref sig .tc .vmem S1x512x512 .f32) (harg7 : arg7.IsWhole)
    (hc1 : k1_cond1 i = 1#1) (hc2 : ¬ k1_cond2 i = 1#1)
    (qi kj qj ki : Vec F S1x512x256 .bf16) (K : PUnit → sProp 𝕄) :
    iprop(owns (c : Thread nD τ) arg3 fullShare qi ∗ owns (c : Thread nD τ) arg4 fullShare kj
        ∗ owns (c : Thread nD τ) arg5 fullShare qj ∗ owns (c : Thread nD τ) arg6 fullShare ki
        ∗ (∃ d, owns (c : Thread nD τ) arg7 fullShare d)
        ∗ (iprop(owns (c : Thread nD τ) arg3 fullShare qi ∗ owns (c : Thread nD τ) arg4 fullShare kj
            ∗ owns (c : Thread nD τ) arg5 fullShare qj ∗ owns (c : Thread nD τ) arg6 fullShare ki
            ∗ owns (c : Thread nD τ) arg7 fullShare (out1_4A qi kj qj ki)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

set_option maxHeartbeats 1000000 in
/-- The kernel where the two tiles differ: the inputs are left as they were and the output holds its one store, the
    symmetrized weights. -/
theorem sound_kernel1_B (c : Dev nD) (E : Set ℕ) (i : grid1.Coords)
    (arg3 : Memref sig .tc .vmem S1x512x256 .bf16) (harg3 : arg3.IsWhole) (arg4 : Memref sig .tc .vmem S1x512x256 .bf16) (harg4 : arg4.IsWhole)
    (arg5 : Memref sig .tc .vmem S1x512x256 .bf16) (harg5 : arg5.IsWhole) (arg6 : Memref sig .tc .vmem S1x512x256 .bf16) (harg6 : arg6.IsWhole)
    (arg7 : Memref sig .tc .vmem S1x512x512 .f32) (harg7 : arg7.IsWhole)
    (hc1 : ¬ k1_cond1 i = 1#1) (hc2 : k1_cond2 i = 1#1)
    (qi kj qj ki : Vec F S1x512x256 .bf16) (K : PUnit → sProp 𝕄) :
    iprop(owns (c : Thread nD τ) arg3 fullShare qi ∗ owns (c : Thread nD τ) arg4 fullShare kj
        ∗ owns (c : Thread nD τ) arg5 fullShare qj ∗ owns (c : Thread nD τ) arg6 fullShare ki
        ∗ (∃ d, owns (c : Thread nD τ) arg7 fullShare d)
        ∗ (iprop(owns (c : Thread nD τ) arg3 fullShare qi ∗ owns (c : Thread nD τ) arg4 fullShare kj
            ∗ owns (c : Thread nD τ) arg5 fullShare qj ∗ owns (c : Thread nD τ) arg6 fullShare ki
            ∗ owns (c : Thread nD τ) arg7 fullShare (out1_4B qi kj qj ki)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation, at a generic point -/

/-- What the body is called with at point `t`: the invariant, what the core owes, and every window's current buffer
    at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple of the point's case applies —
    the tiles coincide or differ —; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rcases cond_cases t with ⟨h1, h2⟩ | ⟨h1, h2⟩
  · rw [if_pos h1]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ h1 h2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [if_neg h1]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ h1 h2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point. -/
theorem body_obligation1 (c : Dev nD) : BodyObligation (dat1 (F := F) V c) (defs₀ (F := F)) Variants.none () Set.univ := by
  intro t
  rw [bigSep_W1, bigSep_W1, idle_false t]
  exact sound_body1 V c t

end Cert.Kernel.Hand

end
-- ==== Proof.KB.Run.lean ====
/-
  The run of the whole program: its two kernel regions entered one after the other from the launch memory.

  Between the regions every buffer outside the kernel's staging memory is held at a named content: at launch the
  memory `m`; after region 0 the same with the queries' and keys' arrays at what the region's write-backs leave;
  after region 1 the same again with the result array at what its write-backs leave. Region 1 reads each of the two
  projection arrays through two windows, so at its entry each of those arrays is split in two halves, one per window,
  and at its exit the halves are joined again. The run ends with every such buffer at the last of these contents:
  the arguments as launched, the result array at region 1's final contents.
-/
import proofs.«134656_j32298154066180_1_alg».proof.Proof.KB.Body0
import proofs.«134656_j32298154066180_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- The same read at the TensorCore's references: what region 0 is entered with. -/
abbrev V0 : (c : Dev nD) → (b : Ref sig .tc) → Buf (Elt F) ((c : Thread nD τ).loc b) := fun c b => W0 m c b

/-- After region 0: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what region 1 is entered with. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: the result array at what the pipeline leaves, every other buffer as region 1 found it. -/
def W2 (c : Dev nD) : Valuation τ sig (Elt F) :=
  Function.update (W1 m c) (Proc.devRef .tc main_v1) ((dat1 (V1 m) c).arrAt 4 cfg1.N)
abbrev V2 : (c : Dev nD) → (b : Ref sig .tc) → Buf (Elt F) ((c : Thread nD τ).loc b) := fun c b => W2 m c b
theorem W2_out (c : Dev nD) : W2 m c (Proc.devRef .tc main_v1) = (dat1 (V1 m) c).arrAt 4 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

/-! ## Region 1's arrays out of the buffers behind them, and back -/

/-- The three distinct buffers behind region 1's five windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_v1) ↦{fullShare} V main_v1)) := by
  unfold Pipeline.arrBufs
  exact bigSep_eq_bigSepL_of_eq [main_v0_0, main_v0_1, main_v1] (by decide) (by decide) _

/-- Region 1's arrays, window by window: each projection array by halves, the result array whole. -/
theorem arrays1_eq (c : Dev nD) (Fa : (w : Fin cfg1.W) → Buf (Elt F) ((cfg1.win w).arr.view.loc (c : Thread nD τ))) :
    ((pdats m 1 c).arrays Fa : sProp 𝕄)
      = iprop((((c : Thread nD τ).loc main_v0_0) ↦{fullShare.left} Fa 0) ∗ (((c : Thread nD τ).loc main_v0_1) ↦{fullShare.left} Fa 1)
          ∗ (((c : Thread nD τ).loc main_v0_0) ↦{fullShare.right} Fa 2) ∗ (((c : Thread nD τ).loc main_v0_1) ↦{fullShare.right} Fa 3)
          ∗ (((c : Thread nD τ).loc main_v1) ↦{fullShare} Fa 4)) := by
  show ((dat1 (V1 m) c).arrays Fa : sProp 𝕄) = _
  unfold Pipeline.Dat.arrays
  rw [bigSep_W1]
  rw [(arr_whole1 0).set_eq_univ, (arr_whole1 1).set_eq_univ, (arr_whole1 4).set_eq_univ]
  rw [show (dat1 (V1 m) c).share 0 = fullShare.left from rfl, show (dat1 (V1 m) c).share 1 = fullShare.left from rfl,
    show (dat1 (V1 m) c).share 2 = fullShare.right from rfl, show (dat1 (V1 m) c).share 3 = fullShare.right from rfl,
    show (dat1 (V1 m) c).share 4 = fullShare from rfl]

/-- The three distinct buffers behind region 1's five windows, whole, make the region's arrays at entry: the queries'
    and the keys' array each split in two halves, one per window onto it. -/
theorem arrays_split1 (c : Dev nD) :
    (Pipeline.arrBufs (Ix := Unit) (Name := ℕ) (U := UR sig nD τ) (Lvl := ℕ) spec1 c (V1 m c) : sProp 𝕄)
      ⊢ (pdats m 1 c).arrays ((pdats m 1 c).arrAt · 0) := by
  rw [arrBufs1_eq, arrays1_eq]
  rw [show (pdats m 1 c).arrAt 0 0 = V1 m c main_v0_0 from rfl, show (pdats m 1 c).arrAt 1 0 = V1 m c main_v0_1 from rfl,
    show (pdats m 1 c).arrAt 2 0 = V1 m c main_v0_0 from rfl, show (pdats m 1 c).arrAt 3 0 = V1 m c main_v0_1 from rfl,
    show (pdats m 1 c).arrAt 4 0 = V1 m c main_v1 from rfl]
  have hq : ((((c : Thread nD τ).loc main_v0_0) ↦{fullShare} V1 m c main_v0_0 : sProp 𝕄))
      ⊢ iprop((((c : Thread nD τ).loc main_v0_0) ↦{fullShare.left} V1 m c main_v0_0) ∗ (((c : Thread nD τ).loc main_v0_0) ↦{fullShare.right} V1 m c main_v0_0)) :=
    (pointsTo_share (PosShare.mem_left_op_right fullShare)).1
  have hk : ((((c : Thread nD τ).loc main_v0_1) ↦{fullShare} V1 m c main_v0_1 : sProp 𝕄))
      ⊢ iprop((((c : Thread nD τ).loc main_v0_1) ↦{fullShare.left} V1 m c main_v0_1) ∗ (((c : Thread nD τ).loc main_v0_1) ↦{fullShare.right} V1 m c main_v0_1)) :=
    (pointsTo_share (PosShare.mem_left_op_right fullShare)).1
  iintro ⟨Hq, Hk, Ho⟩
  ihave Hq2 := hq $$ Hq
  ihave Hk2 := hk $$ Hk
  icases Hq2 with ⟨Hql, Hqr⟩
  icases Hk2 with ⟨Hkl, Hkr⟩
  isplitl [Hql]; · iexact Hql
  isplitl [Hkl]; · iexact Hkl
  isplitl [Hqr]; · iexact Hqr
  isplitl [Hkr]; · iexact Hkr
  iexact Ho

/-- An input window's array is never written: it ends as the region found it. -/
theorem arrAt1_in (c : Dev nD) (w : Fin cfg1.W) (hw : (cfg1.win w).isOut = false) (n : Nat) :
    (pdats m 1 c).arrAt w n = V1 m c (Pipeline.arrRef spec1 w) :=
  ((pdats m 1 c).arrAt_in w hw n).trans (A_eq1 (V1 m) c w)

/-- At region 1's exit the halves join: the region's arrays at their final contents are the three buffers whole, at
    the contents after the region. -/
theorem arrays_join1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (V2 m c) := by
  rw [arrBufs1_eq, arrays1_eq, arrAt1_in m c 0 rfl, arrAt1_in m c 1 rfl, arrAt1_in m c 2 rfl, arrAt1_in m c 3 rfl]
  rw [show V2 m c main_v0_0 = V1 m c main_v0_0 from W2_of_ne m c main_v0_0 (by decide),
    show V2 m c main_v0_1 = V1 m c main_v0_1 from W2_of_ne m c main_v0_1 (by decide),
    show V2 m c main_v1 = (pdats m 1 c).arrAt 4 cfg1.N from W2_out m c]
  iintro ⟨Hql, Hkl, Hqr, Hkr, Ho⟩
  isplitl [Hql Hqr]
  · iapply (pointsTo_share (PosShare.mem_left_op_right fullShare)).2
    isplitl [Hql] <;> iassumption
  isplitl [Hkl Hkr]
  · iapply (pointsTo_share (PosShare.mem_left_op_right fullShare)).2
    isplitl [Hkl] <;> iassumption
  iexact Ho

/-! ## The regions as segments -/

set_option backward.isDefEq.respectTransparency.types false in
/-- Region 0 over the thread state: entered from every buffer at the launch contents, left with its two output arrays
    at what its write-backs leave. Its arrays are distinct buffers, split out whole and put back whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry: every buffer at the contents region 0 left is the region's arrays at entry (the shared arrays
    by halves) and the buffers no window reads. -/
theorem entry1 (c : Dev nD) :
    (StableHlo.held (c : Thread nD τ) (Pipeline.ucRefs τ sig) (W1 m c) : sProp 𝕄)
      ⊢ iprop((pdats m 1 c).arrays ((pdats m 1 c).arrAt · 0)
          ∗ Pipeline.unscopedRest (Ix := Unit) (Name := ℕ) (U := UR sig nD τ) (Lvl := ℕ) spec1 c (V1 m c)) := by
  rw [← Pipeline.unscopedBufs_held (Ix := Unit) (Name := ℕ) (U := UR sig nD τ) (Lvl := ℕ) c (W1 m c),
    Pipeline.unscopedBufs_split₀ (Pipeline.pin (pcfgs (F := F)) adm) 1 winFacts₀1.arr_unscoped c (V1 m c)]
  exact sep_mono (arrays_split1 m c) .rfl

/-- Region 1's exit: its arrays at their final contents and the buffers no window reads are every buffer at the
    contents after the region. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ (Pipeline.pin (pcfgs (F := F)) adm) 1 winFacts₀1.arr_unscoped c (V2 m c)]
  refine sep_mono (arrays_join1 m c) (Entails.of_eq ?_)
  unfold Pipeline.unscopedRest
  refine bigSep_congr fun b hb => ?_
  have hne : b ≠ main_v1 := fun e => (Finset.mem_sdiff.mp hb).2 (Finset.mem_image.mpr ⟨4, Finset.mem_univ _, e ▸ rfl⟩)
  rw [show V2 m c b = V1 m c b from W2_of_ne m c b hne]

set_option backward.isDefEq.respectTransparency.types false in
/-- Region 1 over the thread state: entered from every buffer at the contents region 0 left, left with the result
    array at what its write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c); isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float values: from any memory with zero counters every weakly fair execution of @main terminates,
    nothing faulting, and the final memory holds every buffer outside the staging memory at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the last contents are -/

/-- Region 0 writes no argument and region 1 writes none: each ends as launched. -/
theorem W2_arg (c : Dev nD) (b : Ref sig .tc) (h1 : b ≠ main_v1) (h0 : ∀ w, Pipeline.arrRef spec0 w = b → (cfg0.win w).isOut = false) :
    W2 m c (Proc.devRef .tc b) = W1 m c (Proc.devRef .tc b) := W2_of_ne m c b h1

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  (W1_arr m c 2).trans (((dat0 (V0 m) c).arrAt_in 2 rfl _).trans (A_eq0 (V0 m) c 2))
theorem W1_main_arg3 (c : Dev nD) : W1 m c (Proc.devRef .tc main_arg3) = m ((c : Thread nD τ).loc main_arg3) :=
  (W1_arr m c 3).trans (((dat0 (V0 m) c).arrAt_in 3 rfl _).trans (A_eq0 (V0 m) c 3))
theorem W1_main_arg4 (c : Dev nD) : W1 m c (Proc.devRef .tc main_arg4) = m ((c : Thread nD τ).loc main_arg4) :=
  (W1_arr m c 4).trans (((dat0 (V0 m) c).arrAt_in 4 rfl _).trans (A_eq0 (V0 m) c 4))

/-- THE RUN, read: the result array at region 1's final contents, each argument as launched. -/
theorem run_out : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_out m c),
     (h c _ (mem_uc main_arg0 (by decide))).trans ((W2_of_ne m c main_arg0 (by decide)).trans (W1_main_arg0 m c)),
     (h c _ (mem_uc main_arg1 (by decide))).trans ((W2_of_ne m c main_arg1 (by decide)).trans (W1_main_arg1 m c)),
     (h c _ (mem_uc main_arg2 (by decide))).trans ((W2_of_ne m c main_arg2 (by decide)).trans (W1_main_arg2 m c)),
     (h c _ (mem_uc main_arg3 (by decide))).trans ((W2_of_ne m c main_arg3 (by decide)).trans (W1_main_arg3 m c)),
     (h c _ (mem_uc main_arg4 (by decide))).trans ((W2_of_ne m c main_arg4 (by decide)).trans (W1_main_arg4 m c))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

/-- The two projection arrays as region 1 finds them are region 0's final contents. -/
theorem V1_q (c : Dev nD) : V1 m c main_v0_0 = (dat0 (V0 m) c).arrAt 5 cfg0.N := W1_arr m c 5
theorem V1_k (c : Dev nD) : V1 m c main_v0_1 = (dat0 (V0 m) c).arrAt 6 cfg0.N := W1_arr m c 6

end Cert.Kernel.Hand

end
-- ==== Proof.KI.Data.lean ====
/-
  The proof data of the two kernel regions, at the buffer contents `V` each region is entered from.

  Region 0 (the projections, one grid point per batch): the block of `X` at the point, the two weight matrices and
  the two biases are read whole; each of the two output blocks is written whole, once, with the body's value of them.
  Region 1 (the symmetrized weights, grid `batch × row tile × column tile`): four blocks of the projections are read
  whole — the queries' and keys' blocks of the row tile and of the column tile, two windows onto each array —; the output
  block is written whole, once: with the diagonal cleared where the two tiles coincide, as computed elsewhere.
  Two windows of region 1 read one array, so each of those arrays is held by halves, one half per window.
-/
import proofs.«134656_j32298154066180_1_alg».proof.Proof.Gen.KernelIdeal.Launch
import proofs.«134656_j32298154066180_1_alg».proof.Proof.Gen.KernelIdeal.Skeleton
import proofs.«134656_j32298154066180_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projections -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rX : Rect S1x2048x256 := Rect.unit (s := S1x2048x256) ![0, 0, 0] S1x2048x256.size Facts₀.inb_S1x2048x256_S1x2048x256_0_0_0
abbrev rW : Rect S256x256 := Rect.unit (s := S256x256) ![0, 0] S256x256.size Facts₀.inb_S256x256_S256x256_0_0
abbrev rB : Rect S256 := Rect.unit (s := S256) ![0] S256.size Facts₀.inb_S256_S256_0

/-- The queries' output buffer after the body: its one store, of the body's value of the loaded blocks. -/
def out0_5 (x : Vec F S1x2048x256 .f32) (w : Vec F S256x256 .f32) (b : Vec F S256 .f32) : Vec F S1x2048x256 .bf16 :=
  View.canon [⟨rX, k0_pay2 (View.ld x rX) (View.ld w rW) (View.ld b rB)⟩]
/-- The keys' output buffer after the body. -/
def out0_6 (x : Vec F S1x2048x256 .f32) (w : Vec F S256x256 .f32) (b : Vec F S256 .f32) : Vec F S1x2048x256 .bf16 :=
  View.canon [⟨rX, k0_pay3 (View.ld x rX) (View.ld w rW) (View.ld b rB)⟩]

/-- The one store covers its buffer. -/
theorem cover0 (p0 : Vec F S1x2048x256 .bf16) (y : S1x2048x256.Idx) :
    ∃ pc ∈ ([⟨rX, p0⟩] : List (View.Piece (Elt F) S1x2048x256 .bf16)), y ∈ pc.1.set :=
  View.cover_of_tiled [⟨rX, p0⟩] S1x2048x256.size (by rfl) y

/-- Region 0's proof data on core `c`: every input's buffer left at its block, each output's at the body's value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

/-! # Region 1: the symmetrized weights -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT : Rect S1x512x256 := Rect.unit (s := S1x512x256) ![0, 0, 0] S1x512x256.size Facts₀.inb_S1x512x256_S1x512x256_0_0_0
abbrev rO : Rect S1x512x512 := Rect.unit (s := S1x512x512) ![0, 0, 0] S1x512x512.size Facts₀.inb_S1x512x512_S1x512x512_0_0_0

/-- The output buffer after the body where the row tile and the column tile coincide: the diagonal cleared. -/
def out1_4A (qi kj qj ki : Vec F S1x512x256 .bf16) : Vec F S1x512x512 .f32 :=
  View.canon [⟨rO, k1_pay2 (View.ld qi rT) (View.ld kj rT) (View.ld qj rT) (View.ld ki rT)⟩]
/-- The output buffer after the body where they differ. -/
def out1_4B (qi kj qj ki : Vec F S1x512x256 .bf16) : Vec F S1x512x512 .f32 :=
  View.canon [⟨rO, k1_pay3 (View.ld qi rT) (View.ld kj rT) (View.ld qj rT) (View.ld ki rT)⟩]

theorem cover1 (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

/-- The two tiles of a point coincide or differ: exactly one of the body's two branches is taken. -/
theorem cond_cases : ∀ t : Fin cfg1.N,
    (k1_cond1 (grid1.coords t) = 1#1 ∧ ¬ k1_cond2 (grid1.coords t) = 1#1)
      ∨ (¬ k1_cond1 (grid1.coords t) = 1#1 ∧ k1_cond2 (grid1.coords t) = 1#1) :=
  (by decide +kernel : ∀ t : Fin grid1.N,
    (k1_cond1 (grid1.coords t) = 1#1 ∧ ¬ k1_cond2 (grid1.coords t) = 1#1)
      ∨ (¬ k1_cond1 (grid1.coords t) = 1#1 ∧ k1_cond2 (grid1.coords t) = 1#1))

/-- The halves the two windows onto one array hold it by. -/
abbrev q1 : Fin cfg1.W → PosShare TreeShare := fun
  | ⟨0, _⟩ => fullShare.left
  | ⟨1, _⟩ => fullShare.left
  | ⟨2, _⟩ => fullShare.right
  | ⟨3, _⟩ => fullShare.right
  | ⟨4, _⟩ => fullShare

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => if k1_cond1 (grid1.coords t) = 1#1
        then out1_4A (iblk1 V c 0 t) (iblk1 V c 1 t) (iblk1 V c 2 t) (iblk1 V c 3 t)
        else out1_4B (iblk1 V c 0 t) (iblk1 V c 1 t) (iblk1 V c 2 t) (iblk1 V c 3 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = if k1_cond1 (grid1.coords t) = 1#1
        then out1_4A (iblk1 V c 0 t) (iblk1 V c 1 t) (iblk1 V c 2 t) (iblk1 V c 3 t)
        else out1_4B (iblk1 V c 0 t) (iblk1 V c 1 t) (iblk1 V c 2 t) (iblk1 V c 3 t) := by dsimp only [dat1]

end Cert.KernelIdeal.Hand

end
-- ==== Proof.KI.Body0.lean ====
/-
  Region 0's body at every grid point: from the five input blocks in their staging buffers the projection kernel
  leaves the inputs as they were and each output buffer at the body's value of them.
-/
import proofs.«134656_j32298154066180_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What the body finds in each input window's buffer -/

/-- Input window 0 (the block of `X`) is read whole and left in place, so its current staging buffer holds its block at
    every point, whether the point fetches it or the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun s => by rw [after0_0]; unfold Dat.blockOf iblk0; rw [A_eq0]; try rfl) t d).trans
    (by unfold Dat.fetched Dat.blockOf iblk0; rw [A_eq0]; try rfl)

/-- Input window 1 (the queries' weights) is read whole and left in place, so its current staging buffer holds its block at
    every point, whether the point fetches it or the block index has not moved since the last fetch. -/
theorem before0_1 (c : Dev nD) (t : Fin cfg0.N) (d) : (dat0 V c).before 1 t d = iblk0 V c 1 t :=
  ((dat0 V c).before_in_eq_fetched 1 rfl (fun _ => rfl) (fun _ _ _ => rfl)
    (fun s => by rw [after0_1]; unfold Dat.blockOf iblk0; rw [A_eq0]; try rfl) t d).trans
    (by unfold Dat.fetched Dat.blockOf iblk0; rw [A_eq0]; try rfl)

/-- Input window 2 (the queries' bias) is read whole and left in place, so its current staging buffer holds its block at
    every point, whether the point fetches it or the block index has not moved since the last fetch. -/
theorem before0_2 (c : Dev nD) (t : Fin cfg0.N) (d) : (dat0 V c).before 2 t d = iblk0 V c 2 t :=
  ((dat0 V c).before_in_eq_fetched 2 rfl (fun _ => rfl) (fun _ _ _ => rfl)
    (fun s => by rw [after0_2]; unfold Dat.blockOf iblk0; rw [A_eq0]; try rfl) t d).trans
    (by unfold Dat.fetched Dat.blockOf iblk0; rw [A_eq0]; try rfl)

/-- Input window 3 (the keys' weights) is read whole and left in place, so its current staging buffer holds its block at
    every point, whether the point fetches it or the block index has not moved since the last fetch. -/
theorem before0_3 (c : Dev nD) (t : Fin cfg0.N) (d) : (dat0 V c).before 3 t d = iblk0 V c 3 t :=
  ((dat0 V c).before_in_eq_fetched 3 rfl (fun _ => rfl) (fun _ _ _ => rfl)
    (fun s => by rw [after0_3]; unfold Dat.blockOf iblk0; rw [A_eq0]; try rfl) t d).trans
    (by unfold Dat.fetched Dat.blockOf iblk0; rw [A_eq0]; try rfl)

/-- Input window 4 (the keys' bias) is read whole and left in place, so its current staging buffer holds its block at
    every point, whether the point fetches it or the block index has not moved since the last fetch. -/
theorem before0_4 (c : Dev nD) (t : Fin cfg0.N) (d) : (dat0 V c).before 4 t d = iblk0 V c 4 t :=
  ((dat0 V c).before_in_eq_fetched 4 rfl (fun _ => rfl) (fun _ _ _ => rfl)
    (fun s => by rw [after0_4]; unfold Dat.blockOf iblk0; rw [A_eq0]; try rfl) t d).trans
    (by unfold Dat.fetched Dat.blockOf iblk0; rw [A_eq0]; try rfl)

/-! # The kernel's triple -/

set_option maxHeartbeats 1000000 in
/-- The projection kernel on whole staging memrefs — the five inputs' at read contents `x0 … x4`, the two outputs' at
    anything — runs to the continuation holding the inputs' as they were, the queries' output at `out0_5 x0 x1 x2` and
    the keys' at `out0_6 x0 x3 x4`. The kernel loads each output buffer before its one store; the loaded values are
    unused, and the store, covering the buffer, decides its contents. -/
theorem sound_kernel0 (c : Dev nD) (E : Set ℕ) (i : grid0.Coords)
    (arg1 : Memref sig .tc .vmem S1x2048x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x256 .f32) (harg4 : arg4.IsWhole)
    (arg5 : Memref sig .tc .vmem S256 .f32) (harg5 : arg5.IsWhole)
    (arg6 : Memref sig .tc .vmem S1x2048x256 .bf16) (harg6 : arg6.IsWhole)
    (arg7 : Memref sig .tc .vmem S1x2048x256 .bf16) (harg7 : arg7.IsWhole)
    (x0 : Vec F S1x2048x256 .f32) (x1 : Vec F S256x256 .f32) (x2 : Vec F S256 .f32)
    (x3 : Vec F S256x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2)
            ∗ owns (c : Thread nD τ) arg7 fullShare (out0_6 x0 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! # The body obligation, at a generic point -/

/-- What the body is called with at point `t`: the invariant, what the core owes, and each window's current staging
    buffer at what it then holds, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at point `t`: the same invariant and dues, every buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the five inputs' buffers hold their blocks (`before0_w`), so the kernel's triple applies at
    those blocks; the invariant and what the core owes do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body at every grid point: from the four input blocks in their staging buffers the kernel leaves the
  inputs as they were and the output buffer at the symmetrized weights of the tile, the diagonal cleared where the
  row tile and the column tile coincide.
-/
import proofs.«134656_j32298154066180_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The output window is idle at no point: one of the body's two stores into it is taken at each. -/
theorem idle_false (t : Fin cfg1.N) : cfg1.idle 4 (cfg1.grid.coords t) = false := by
  show (!(k1_cond1 (grid1.coords t) == 1#1) && !(k1_cond2 (grid1.coords t) == 1#1)) = false
  rcases cond_cases t with ⟨h1, _⟩ | ⟨_, h2⟩
  · rw [h1]; rfl
  · rw [h2]; simp

/-! ## The kernel's triples, one per case of the two tiles -/

set_option maxHeartbeats 1000000 in
/-- The kernel where the row tile and the column tile coincide, on whole staging memrefs — the four inputs' at their
    contents, the output's at anything —: the inputs are left as they were and the output holds its one store, the
    symmetrized weights with the diagonal cleared. -/
theorem sound_kernel1_A (c : Dev nD) (E : Set ℕ) (i : grid1.Coords)
    (arg3 : Memref sig .tc .vmem S1x512x256 .bf16) (harg3 : arg3.IsWhole) (arg4 : Memref sig .tc .vmem S1x512x256 .bf16) (harg4 : arg4.IsWhole)
    (arg5 : Memref sig .tc .vmem S1x512x256 .bf16) (harg5 : arg5.IsWhole) (arg6 : Memref sig .tc .vmem S1x512x256 .bf16) (harg6 : arg6.IsWhole)
    (arg7 : Memref sig .tc .vmem S1x512x512 .f32) (harg7 : arg7.IsWhole)
    (hc1 : k1_cond1 i = 1#1) (hc2 : ¬ k1_cond2 i = 1#1)
    (qi kj qj ki : Vec F S1x512x256 .bf16) (K : PUnit → sProp 𝕄) :
    iprop(owns (c : Thread nD τ) arg3 fullShare qi ∗ owns (c : Thread nD τ) arg4 fullShare kj
        ∗ owns (c : Thread nD τ) arg5 fullShare qj ∗ owns (c : Thread nD τ) arg6 fullShare ki
        ∗ (∃ d, owns (c : Thread nD τ) arg7 fullShare d)
        ∗ (iprop(owns (c : Thread nD τ) arg3 fullShare qi ∗ owns (c : Thread nD τ) arg4 fullShare kj
            ∗ owns (c : Thread nD τ) arg5 fullShare qj ∗ owns (c : Thread nD τ) arg6 fullShare ki
            ∗ owns (c : Thread nD τ) arg7 fullShare (out1_4A qi kj qj ki)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

set_option maxHeartbeats 1000000 in
/-- The kernel where the two tiles differ: the inputs are left as they were and the output holds its one store, the
    symmetrized weights. -/
theorem sound_kernel1_B (c : Dev nD) (E : Set ℕ) (i : grid1.Coords)
    (arg3 : Memref sig .tc .vmem S1x512x256 .bf16) (harg3 : arg3.IsWhole) (arg4 : Memref sig .tc .vmem S1x512x256 .bf16) (harg4 : arg4.IsWhole)
    (arg5 : Memref sig .tc .vmem S1x512x256 .bf16) (harg5 : arg5.IsWhole) (arg6 : Memref sig .tc .vmem S1x512x256 .bf16) (harg6 : arg6.IsWhole)
    (arg7 : Memref sig .tc .vmem S1x512x512 .f32) (harg7 : arg7.IsWhole)
    (hc1 : ¬ k1_cond1 i = 1#1) (hc2 : k1_cond2 i = 1#1)
    (qi kj qj ki : Vec F S1x512x256 .bf16) (K : PUnit → sProp 𝕄) :
    iprop(owns (c : Thread nD τ) arg3 fullShare qi ∗ owns (c : Thread nD τ) arg4 fullShare kj
        ∗ owns (c : Thread nD τ) arg5 fullShare qj ∗ owns (c : Thread nD τ) arg6 fullShare ki
        ∗ (∃ d, owns (c : Thread nD τ) arg7 fullShare d)
        ∗ (iprop(owns (c : Thread nD τ) arg3 fullShare qi ∗ owns (c : Thread nD τ) arg4 fullShare kj
            ∗ owns (c : Thread nD τ) arg5 fullShare qj ∗ owns (c : Thread nD τ) arg6 fullShare ki
            ∗ owns (c : Thread nD τ) arg7 fullShare (out1_4B qi kj qj ki)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation, at a generic point -/

/-- What the body is called with at point `t`: the invariant, what the core owes, and every window's current buffer
    at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple of the point's case applies —
    the tiles coincide or differ —; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rcases cond_cases t with ⟨h1, h2⟩ | ⟨h1, h2⟩
  · rw [if_pos h1]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ h1 h2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [if_neg h1]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ h1 h2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point. -/
theorem body_obligation1 (c : Dev nD) : BodyObligation (dat1 (F := F) V c) (defs₀ (F := F)) Variants.none () Set.univ := by
  intro t
  rw [bigSep_W1, bigSep_W1, idle_false t]
  exact sound_body1 V c t

end Cert.KernelIdeal.Hand

end
-- ==== Proof.KI.Run.lean ====
/-
  The run of the whole program: its two kernel regions entered one after the other from the launch memory.

  Between the regions every buffer outside the kernel's staging memory is held at a named content: at launch the
  memory `m`; after region 0 the same with the queries' and keys' arrays at what the region's write-backs leave;
  after region 1 the same again with the result array at what its write-backs leave. Region 1 reads each of the two
  projection arrays through two windows, so at its entry each of those arrays is split in two halves, one per window,
  and at its exit the halves are joined again. The run ends with every such buffer at the last of these contents:
  the arguments as launched, the result array at region 1's final contents.
-/
import proofs.«134656_j32298154066180_1_alg».proof.Proof.KI.Body0
import proofs.«134656_j32298154066180_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- The same read at the TensorCore's references: what region 0 is entered with. -/
abbrev V0 : (c : Dev nD) → (b : Ref sig .tc) → Buf (Elt F) ((c : Thread nD τ).loc b) := fun c b => W0 m c b

/-- After region 0: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what region 1 is entered with. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: the result array at what the pipeline leaves, every other buffer as region 1 found it. -/
def W2 (c : Dev nD) : Valuation τ sig (Elt F) :=
  Function.update (W1 m c) (Proc.devRef .tc main_v1) ((dat1 (V1 m) c).arrAt 4 cfg1.N)
abbrev V2 : (c : Dev nD) → (b : Ref sig .tc) → Buf (Elt F) ((c : Thread nD τ).loc b) := fun c b => W2 m c b
theorem W2_out (c : Dev nD) : W2 m c (Proc.devRef .tc main_v1) = (dat1 (V1 m) c).arrAt 4 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

/-! ## Region 1's arrays out of the buffers behind them, and back -/

/-- The three distinct buffers behind region 1's five windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_v1) ↦{fullShare} V main_v1)) := by
  unfold Pipeline.arrBufs
  exact bigSep_eq_bigSepL_of_eq [main_v0_0, main_v0_1, main_v1] (by decide) (by decide) _

/-- Region 1's arrays, window by window: each projection array by halves, the result array whole. -/
theorem arrays1_eq (c : Dev nD) (Fa : (w : Fin cfg1.W) → Buf (Elt F) ((cfg1.win w).arr.view.loc (c : Thread nD τ))) :
    ((pdats m 1 c).arrays Fa : sProp 𝕄)
      = iprop((((c : Thread nD τ).loc main_v0_0) ↦{fullShare.left} Fa 0) ∗ (((c : Thread nD τ).loc main_v0_1) ↦{fullShare.left} Fa 1)
          ∗ (((c : Thread nD τ).loc main_v0_0) ↦{fullShare.right} Fa 2) ∗ (((c : Thread nD τ).loc main_v0_1) ↦{fullShare.right} Fa 3)
          ∗ (((c : Thread nD τ).loc main_v1) ↦{fullShare} Fa 4)) := by
  show ((dat1 (V1 m) c).arrays Fa : sProp 𝕄) = _
  unfold Pipeline.Dat.arrays
  rw [bigSep_W1]
  rw [(arr_whole1 0).set_eq_univ, (arr_whole1 1).set_eq_univ, (arr_whole1 4).set_eq_univ]
  rw [show (dat1 (V1 m) c).share 0 = fullShare.left from rfl, show (dat1 (V1 m) c).share 1 = fullShare.left from rfl,
    show (dat1 (V1 m) c).share 2 = fullShare.right from rfl, show (dat1 (V1 m) c).share 3 = fullShare.right from rfl,
    show (dat1 (V1 m) c).share 4 = fullShare from rfl]

/-- The three distinct buffers behind region 1's five windows, whole, make the region's arrays at entry: the queries'
    and the keys' array each split in two halves, one per window onto it. -/
theorem arrays_split1 (c : Dev nD) :
    (Pipeline.arrBufs (Ix := Unit) (Name := ℕ) (U := UR sig nD τ) (Lvl := ℕ) spec1 c (V1 m c) : sProp 𝕄)
      ⊢ (pdats m 1 c).arrays ((pdats m 1 c).arrAt · 0) := by
  rw [arrBufs1_eq, arrays1_eq]
  rw [show (pdats m 1 c).arrAt 0 0 = V1 m c main_v0_0 from rfl, show (pdats m 1 c).arrAt 1 0 = V1 m c main_v0_1 from rfl,
    show (pdats m 1 c).arrAt 2 0 = V1 m c main_v0_0 from rfl, show (pdats m 1 c).arrAt 3 0 = V1 m c main_v0_1 from rfl,
    show (pdats m 1 c).arrAt 4 0 = V1 m c main_v1 from rfl]
  have hq : ((((c : Thread nD τ).loc main_v0_0) ↦{fullShare} V1 m c main_v0_0 : sProp 𝕄))
      ⊢ iprop((((c : Thread nD τ).loc main_v0_0) ↦{fullShare.left} V1 m c main_v0_0) ∗ (((c : Thread nD τ).loc main_v0_0) ↦{fullShare.right} V1 m c main_v0_0)) :=
    (pointsTo_share (PosShare.mem_left_op_right fullShare)).1
  have hk : ((((c : Thread nD τ).loc main_v0_1) ↦{fullShare} V1 m c main_v0_1 : sProp 𝕄))
      ⊢ iprop((((c : Thread nD τ).loc main_v0_1) ↦{fullShare.left} V1 m c main_v0_1) ∗ (((c : Thread nD τ).loc main_v0_1) ↦{fullShare.right} V1 m c main_v0_1)) :=
    (pointsTo_share (PosShare.mem_left_op_right fullShare)).1
  iintro ⟨Hq, Hk, Ho⟩
  ihave Hq2 := hq $$ Hq
  ihave Hk2 := hk $$ Hk
  icases Hq2 with ⟨Hql, Hqr⟩
  icases Hk2 with ⟨Hkl, Hkr⟩
  isplitl [Hql]; · iexact Hql
  isplitl [Hkl]; · iexact Hkl
  isplitl [Hqr]; · iexact Hqr
  isplitl [Hkr]; · iexact Hkr
  iexact Ho

/-- An input window's array is never written: it ends as the region found it. -/
theorem arrAt1_in (c : Dev nD) (w : Fin cfg1.W) (hw : (cfg1.win w).isOut = false) (n : Nat) :
    (pdats m 1 c).arrAt w n = V1 m c (Pipeline.arrRef spec1 w) :=
  ((pdats m 1 c).arrAt_in w hw n).trans (A_eq1 (V1 m) c w)

/-- At region 1's exit the halves join: the region's arrays at their final contents are the three buffers whole, at
    the contents after the region. -/
theorem arrays_join1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (V2 m c) := by
  rw [arrBufs1_eq, arrays1_eq, arrAt1_in m c 0 rfl, arrAt1_in m c 1 rfl, arrAt1_in m c 2 rfl, arrAt1_in m c 3 rfl]
  rw [show V2 m c main_v0_0 = V1 m c main_v0_0 from W2_of_ne m c main_v0_0 (by decide),
    show V2 m c main_v0_1 = V1 m c main_v0_1 from W2_of_ne m c main_v0_1 (by decide),
    show V2 m c main_v1 = (pdats m 1 c).arrAt 4 cfg1.N from W2_out m c]
  iintro ⟨Hql, Hkl, Hqr, Hkr, Ho⟩
  isplitl [Hql Hqr]
  · iapply (pointsTo_share (PosShare.mem_left_op_right fullShare)).2
    isplitl [Hql] <;> iassumption
  isplitl [Hkl Hkr]
  · iapply (pointsTo_share (PosShare.mem_left_op_right fullShare)).2
    isplitl [Hkl] <;> iassumption
  iexact Ho

/-! ## The regions as segments -/

set_option backward.isDefEq.respectTransparency.types false in
/-- Region 0 over the thread state: entered from every buffer at the launch contents, left with its two output arrays
    at what its write-backs leave. Its arrays are distinct buffers, split out whole and put back whole. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's entry: every buffer at the contents region 0 left is the region's arrays at entry (the shared arrays
    by halves) and the buffers no window reads. -/
theorem entry1 (c : Dev nD) :
    (StableHlo.held (c : Thread nD τ) (Pipeline.ucRefs τ sig) (W1 m c) : sProp 𝕄)
      ⊢ iprop((pdats m 1 c).arrays ((pdats m 1 c).arrAt · 0)
          ∗ Pipeline.unscopedRest (Ix := Unit) (Name := ℕ) (U := UR sig nD τ) (Lvl := ℕ) spec1 c (V1 m c)) := by
  rw [← Pipeline.unscopedBufs_held (Ix := Unit) (Name := ℕ) (U := UR sig nD τ) (Lvl := ℕ) c (W1 m c),
    Pipeline.unscopedBufs_split₀ (Pipeline.pin (pcfgs (F := F)) adm) 1 winFacts₀1.arr_unscoped c (V1 m c)]
  exact sep_mono (arrays_split1 m c) .rfl

/-- Region 1's exit: its arrays at their final contents and the buffers no window reads are every buffer at the
    contents after the region. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ (Pipeline.pin (pcfgs (F := F)) adm) 1 winFacts₀1.arr_unscoped c (V2 m c)]
  refine sep_mono (arrays_join1 m c) (Entails.of_eq ?_)
  unfold Pipeline.unscopedRest
  refine bigSep_congr fun b hb => ?_
  have hne : b ≠ main_v1 := fun e => (Finset.mem_sdiff.mp hb).2 (Finset.mem_image.mpr ⟨4, Finset.mem_univ _, e ▸ rfl⟩)
  rw [show V2 m c b = V1 m c b from W2_of_ne m c b hne]

set_option backward.isDefEq.respectTransparency.types false in
/-- Region 1 over the thread state: entered from every buffer at the contents region 0 left, left with the result
    array at what its write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c); isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float values: from any memory with zero counters every weakly fair execution of @main terminates,
    nothing faulting, and the final memory holds every buffer outside the staging memory at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the last contents are -/

/-- Region 0 writes no argument and region 1 writes none: each ends as launched. -/
theorem W2_arg (c : Dev nD) (b : Ref sig .tc) (h1 : b ≠ main_v1) (h0 : ∀ w, Pipeline.arrRef spec0 w = b → (cfg0.win w).isOut = false) :
    W2 m c (Proc.devRef .tc b) = W1 m c (Proc.devRef .tc b) := W2_of_ne m c b h1

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg2 (c : Dev nD) : W1 m c (Proc.devRef .tc main_arg2) = m ((c : Thread nD τ).loc main_arg2) :=
  (W1_arr m c 2).trans (((dat0 (V0 m) c).arrAt_in 2 rfl _).trans (A_eq0 (V0 m) c 2))
theorem W1_main_arg3 (c : Dev nD) : W1 m c (Proc.devRef .tc main_arg3) = m ((c : Thread nD τ).loc main_arg3) :=
  (W1_arr m c 3).trans (((dat0 (V0 m) c).arrAt_in 3 rfl _).trans (A_eq0 (V0 m) c 3))
theorem W1_main_arg4 (c : Dev nD) : W1 m c (Proc.devRef .tc main_arg4) = m ((c : Thread nD τ).loc main_arg4) :=
  (W1_arr m c 4).trans (((dat0 (V0 m) c).arrAt_in 4 rfl _).trans (A_eq0 (V0 m) c 4))

/-- THE RUN, read: the result array at region 1's final contents, each argument as launched. -/
theorem run_out : θ_run defs (onTc (τ := τ) (main (F := F))) ⟨m, fun _ => 0, ρ⟩ (fun r => ∀ c : Dev nD,
      r.2.mem ((c.tc : Thread nD τ).loc main_v1) = (dat1 (V1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_out m c),
     (h c _ (mem_uc main_arg0 (by decide))).trans ((W2_of_ne m c main_arg0 (by decide)).trans (W1_main_arg0 m c)),
     (h c _ (mem_uc main_arg1 (by decide))).trans ((W2_of_ne m c main_arg1 (by decide)).trans (W1_main_arg1 m c)),
     (h c _ (mem_uc main_arg2 (by decide))).trans ((W2_of_ne m c main_arg2 (by decide)).trans (W1_main_arg2 m c)),
     (h c _ (mem_uc main_arg3 (by decide))).trans ((W2_of_ne m c main_arg3 (by decide)).trans (W1_main_arg3 m c)),
     (h c _ (mem_uc main_arg4 (by decide))).trans ((W2_of_ne m c main_arg4 (by decide)).trans (W1_main_arg4 m c))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_out m ρ)

/-- The two projection arrays as region 1 finds them are region 0's final contents. -/
theorem V1_q (c : Dev nD) : V1 m c main_v0_0 = (dat0 (V0 m) c).arrAt 5 cfg0.N := W1_arr m c 5
theorem V1_k (c : Dev nD) : V1 m c main_v0_1 = (dat0 (V0 m) c).arrAt 6 cfg0.N := W1_arr m c 6

end Cert.KernelIdeal.Hand

end
-- ==== Proof.Spec.lean ====
/-
  The function both programs compute, index by index, over the extended reals.

  With `Q = relu (X · Wq + bq)` and `K = relu (X · Wk + bk)` (row `n` of batch `b` against column `e` of the weights),
  the score of rows `n` and `m` of one batch is `S b n m = ∑ d, Q b n d * K b m d`, its weight the logistic function of
  the score scaled by 1/16, and the result the half-sum of the weight and its transpose, zero on the diagonal.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![8, 2048, 256]⟩
abbrev SW : Shape := ⟨2, ![256, 256]⟩
abbrev SB : Shape := ⟨1, ![256]⟩
abbrev SO : Shape := ⟨3, ![8, 2048, 2048]⟩

/-- One projection at batch `b`, row `n`, feature `e`: the row of `X` against the column of `W`, plus the bias, clamped at zero below. -/
def projAt (X : SX.Idx → EReal) (W : SW.Idx → EReal) (β : SB.Idx → EReal) (b : Fin 8) (n : Fin 2048) (e : Fin 256) : EReal :=
  max ((∑ k : Fin 256, X (ix3 b n k) * W (ix2 k e)) + β (ix1 e)) (Ideal.ofBits .f32 0x00000000#32)

/-- The projection as an array. -/
def proj (X : SX.Idx → EReal) (W : SW.Idx → EReal) (β : SB.Idx → EReal) : SX.Idx → EReal :=
  fun i => projAt X W β (i 0) (i 1) (i 2)

/-- The score of rows `n` and `m` of batch `b`. -/
def score (Q K : SX.Idx → EReal) (b : Fin 8) (n m : Fin 2048) : EReal :=
  ∑ d : Fin 256, Q (ix3 b n d) * K (ix3 b m d)

/-- The weight of a score: the logistic function of the score scaled by 1/16. -/
def weight (s : EReal) : EReal := Ideal.logistic (s * Ideal.ofBits .f32 0x3D800000#32)

/-- The symmetrized weight of rows `n` and `m`, before the diagonal is cleared. -/
def sym (Q K : SX.Idx → EReal) (b : Fin 8) (n m : Fin 2048) : EReal :=
  Ideal.ofBits .f32 0x3F000000#32 * (weight (score Q K b n m) + weight (score Q K b m n))

/-- The result from the two projections: the symmetrized weight off the diagonal, zero on it. -/
def attnAt (Q K : SX.Idx → EReal) (b : Fin 8) (n m : Fin 2048) : EReal :=
  if n = m then 0 else sym Q K b n m

def attn (Q K : SX.Idx → EReal) : SO.Idx → EReal :=
  fun i => attnAt Q K (i 0) (i 1) (i 2)

/-- The whole function of the five argument arrays. -/
def G (X : SX.Idx → EReal) (Wq : SW.Idx → EReal) (bq : SB.Idx → EReal) (Wk : SW.Idx → EReal) (bk : SB.Idx → EReal) :
    SO.Idx → EReal :=
  attn (proj X Wq bq) (proj X Wk bk)

end Cert.Spec

end
-- ==== Proof.KI.Value0.lean ====
/-
  What region 0 leaves in its two output arrays, over the extended reals: the projections of the specification.
-/
import proofs.«134656_j32298154066180_1_alg».proof.Proof.KI.Data
import proofs.«134656_j32298154066180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

section Projections

open Idealize.ShloMosaic.ValueIdx

/-! # The body's value of its blocks, entry by entry -/

/-- The block of `X` with its unit axis dropped, entry `(n, k)`: narrowing changes nothing over the extended reals. -/
theorem proj_lhs_apply (x : Vec Ideal S1x2048x256 .f32) (n : Fin 2048) (k : Fin 256) :
    k0_pay1 (F := Ideal) x (ix2 n k) = x (ix3 (0 : Fin 1) n k) := by
  unfold k0_pay1
  exact shapeCast_1ab_ab_apply x shapeCasts_S1x2048x256_S2048x256 n k

/-! The product's operand indices: row `n`, column `e` of the product reads row `n` of the left factor and column `e` of
the right one, along the one contracted axis. -/

theorem lhs_proj_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_proj_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_proj_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_proj_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into the zero accumulator, entry `(n, e)`: the sum over `k` of the left factor's `(n, k)` times the right one's `(k, e)`. -/
theorem matmul_proj_apply (l : FVec Ideal S2048x256 .bf16) (r : FVec Ideal S256x256 .bf16) (n : Fin 2048) (e : Fin 256) :
    matmul dot_S2048x256_S256x256_S2048x256_1_0_0_1_n_n none l r (constant (F := Ideal) S2048x256 .f32 0x00000000#32) (ix2 n e)
      = ∑ k : Fin 256, l (ix2 n k) * r (ix2 k e) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 n e) ((contrEquiv1 dot_S2048x256_S256x256_S2048x256_1_0_0_1_n_n 256 rfl rfl).symm k) = ix2 n k := funext fun a => Fin.ext (by
    match a with
    | ⟨0, _⟩ => exact lhs_proj_0 _ _
    | ⟨1, _⟩ => exact (lhs_proj_1 _ _).trans hk)
  have er : dot_S2048x256_S256x256_S2048x256_1_0_0_1_n_n.rhsIdx (ix2 n e) ((contrEquiv1 dot_S2048x256_S256x256_S2048x256_1_0_0_1_n_n 256 rfl rfl).symm k) = ix2 k e := funext fun a => Fin.ext (by
    match a with
    | ⟨0, _⟩ => exact (rhs_proj_0 _ _).trans hk
    | ⟨1, _⟩ => exact rhs_proj_1 _ _)
  rw [el, er]

/-- One projection's block, entry `(0, n, e)`: row `n` of the block of `X` against column `e` of the weights, plus the
bias at `e`, clamped at zero below. -/
theorem projQ_block_apply (x : Vec Ideal S1x2048x256 .f32) (w : Vec Ideal S256x256 .f32) (b : Vec Ideal S256 .f32)
    (u : Fin 1) (n : Fin 2048) (e : Fin 256) :
    k0_pay2 (F := Ideal) x w b (ix3 u n e)
      = max ((∑ k : Fin 256, x (ix3 (0 : Fin 1) n k) * w (ix2 k e)) + b (ix1 e)) (Ideal.ofBits .f32 0x00000000#32) := by
  unfold k0_pay2
  refine (shapeCast_ab_1ab_apply _ shapeCasts_S2048x256_S1x2048x256 u n e).trans ?_
  show max (_ + _) _ = _
  refine congrArg₂ max (congrArg₂ (· + ·) ?_ ?_) rfl
  · refine (matmul_proj_apply _ _ n e).trans (Finset.sum_congr rfl fun k _ => ?_)
    rw [proj_lhs_apply]
    rfl
  · refine (broadcastTo_1b_ab_apply _ broadcasts_S1x256_S2048x256 n e).trans ?_
    exact shapeCast_a_1a_apply b shapeCasts_S256_S1x256 0 e

/-- The other projection's block is the same function of its weights and bias. -/
theorem projK_block_apply (x : Vec Ideal S1x2048x256 .f32) (w : Vec Ideal S256x256 .f32) (b : Vec Ideal S256 .f32)
    (u : Fin 1) (n : Fin 2048) (e : Fin 256) :
    k0_pay3 (F := Ideal) x w b (ix3 u n e)
      = max ((∑ k : Fin 256, x (ix3 (0 : Fin 1) n k) * w (ix2 k e)) + b (ix1 e)) (Ideal.ofBits .f32 0x00000000#32) := by
  unfold k0_pay3
  refine (shapeCast_ab_1ab_apply _ shapeCasts_S2048x256_S1x2048x256 u n e).trans ?_
  show max (_ + _) _ = _
  refine congrArg₂ max (congrArg₂ (· + ·) ?_ ?_) rfl
  · refine (matmul_proj_apply _ _ n e).trans (Finset.sum_congr rfl fun k _ => ?_)
    rw [proj_lhs_apply]
    rfl
  · refine (broadcastTo_1b_ab_apply _ broadcasts_S1x256_S2048x256 n e).trans ?_
    exact shapeCast_a_1a_apply b shapeCasts_S256_S1x256 0 e

/-! # From the blocks to the arrays -/

theorem zeros3_proj : (![0, 0, 0] : Fin 3 → Nat) = fun _ => 0 := funext fun a => by fin_cases a <;> rfl
theorem zeros2_proj : (![0, 0] : Fin 2 → Nat) = fun _ => 0 := funext fun a => by fin_cases a <;> rfl
theorem zeros1_proj : (![0] : Fin 1 → Nat) = fun _ => 0 := funext fun a => by fin_cases a <;> rfl

/-- The grid's point `t` is batch `t`: the blocks of `X`, of the queries and of the keys sit at block index `(t, 0, 0)`,
the weights and the biases at block index zero. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The block of `X` at point `t`, entry `(0, n, k)`: `X` at `(t, n, k)`. -/
theorem iblk0_X (c : Dev nD) (t : Fin cfg0.N) (β : Fin 8) (hβ : β.val = t.val) (n : Fin 2048) (k : Fin 256) :
    (iblk0 V c 0 t : Vec Ideal S1x2048x256 .f32) (ix3 (0 : Fin 1) n k) = (V c main_arg0 : S8x2048x256.Idx → EReal) (ix3 β n k) := by
  obtain ⟨⟨e0, e1, e2⟩, -⟩ := idx_facts0 t
  unfold iblk0
  rw [View.read_apply]
  show V c main_arg0 _ = V c main_arg0 _
  congr 1
  funext a
  apply Fin.ext
  match a with
  | ⟨0, _⟩ => show win0_0.index t 0 * 1 + 1 * 0 = β.val; rw [e0, hβ]; omega
  | ⟨1, _⟩ => show win0_0.index t 1 * 2048 + 1 * n.val = n.val; rw [e1]; omega
  | ⟨2, _⟩ => show win0_0.index t 2 * 256 + 1 * k.val = k.val; rw [e2]; omega

/-- The queries' weights at any point: the whole matrix. -/
theorem iblk0_Wq (c : Dev nD) (t : Fin cfg0.N) (k e : Fin 256) :
    (iblk0 V c 1 t : Vec Ideal S256x256 .f32) (ix2 k e) = (V c main_arg1 : S256x256.Idx → EReal) (ix2 k e) := by
  obtain ⟨-, ⟨e0, e1⟩, -⟩ := idx_facts0 t
  unfold iblk0
  rw [View.read_apply]
  show V c main_arg1 _ = V c main_arg1 _
  congr 1
  funext a
  apply Fin.ext
  match a with
  | ⟨0, _⟩ => show win0_1.index t 0 * 256 + 1 * k.val = k.val; rw [e0]; omega
  | ⟨1, _⟩ => show win0_1.index t 1 * 256 + 1 * e.val = e.val; rw [e1]; omega

/-- The queries' bias at any point: the whole vector. -/
theorem iblk0_bq (c : Dev nD) (t : Fin cfg0.N) (e : Fin 256) :
    (iblk0 V c 2 t : Vec Ideal S256 .f32) (ix1 e) = (V c main_arg2 : S256.Idx → EReal) (ix1 e) := by
  obtain ⟨-, -, e0, -⟩ := idx_facts0 t
  unfold iblk0
  rw [View.read_apply]
  show V c main_arg2 _ = V c main_arg2 _
  congr 1
  funext a
  apply Fin.ext
  match a with
  | ⟨0, _⟩ => show win0_2.index t 0 * 256 + 1 * e.val = e.val; rw [e0]; omega

/-- The keys' weights at any point: the whole matrix. -/
theorem iblk0_Wk (c : Dev nD) (t : Fin cfg0.N) (k e : Fin 256) :
    (iblk0 V c 3 t : Vec Ideal S256x256 .f32) (ix2 k e) = (V c main_arg3 : S256x256.Idx → EReal) (ix2 k e) := by
  obtain ⟨-, -, -, ⟨e0, e1⟩, -⟩ := idx_facts0 t
  unfold iblk0
  rw [View.read_apply]
  show V c main_arg3 _ = V c main_arg3 _
  congr 1
  funext a
  apply Fin.ext
  match a with
  | ⟨0, _⟩ => show win0_3.index t 0 * 256 + 1 * k.val = k.val; rw [e0]; omega
  | ⟨1, _⟩ => show win0_3.index t 1 * 256 + 1 * e.val = e.val; rw [e1]; omega

/-- The keys' bias at any point: the whole vector. -/
theorem iblk0_bk (c : Dev nD) (t : Fin cfg0.N) (e : Fin 256) :
    (iblk0 V c 4 t : Vec Ideal S256 .f32) (ix1 e) = (V c main_arg4 : S256.Idx → EReal) (ix1 e) := by
  obtain ⟨-, -, -, -, e0, -⟩ := idx_facts0 t
  unfold iblk0
  rw [View.read_apply]
  show V c main_arg4 _ = V c main_arg4 _
  congr 1
  funext a
  apply Fin.ext
  match a with
  | ⟨0, _⟩ => show win0_4.index t 0 * 256 + 1 * e.val = e.val; rw [e0]; omega

/-- A projection's block at an index with row `n` and feature `e`. -/
theorem projQ_block_at (x : Vec Ideal S1x2048x256 .f32) (w : Vec Ideal S256x256 .f32) (b : Vec Ideal S256 .f32)
    (J : S1x2048x256.Idx) (n : Fin 2048) (e : Fin 256) (hn : (J 1).val = n.val) (he : (J 2).val = e.val) :
    k0_pay2 (F := Ideal) x w b J
      = max ((∑ k : Fin 256, x (ix3 (0 : Fin 1) n k) * w (ix2 k e)) + b (ix1 e)) (Ideal.ofBits .f32 0x00000000#32) := by
  have hJ : J = ix3 (0 : Fin 1) n e := funext fun a => Fin.ext (by
    match a with
    | ⟨0, _⟩ => have h : (J 0).val < 1 := (J 0).isLt; show (J 0).val = 0; omega
    | ⟨1, _⟩ => exact hn
    | ⟨2, _⟩ => exact he)
  rw [hJ]
  exact projQ_block_apply x w b 0 n e

theorem projK_block_at (x : Vec Ideal S1x2048x256 .f32) (w : Vec Ideal S256x256 .f32) (b : Vec Ideal S256 .f32)
    (J : S1x2048x256.Idx) (n : Fin 2048) (e : Fin 256) (hn : (J 1).val = n.val) (he : (J 2).val = e.val) :
    k0_pay3 (F := Ideal) x w b J
      = max ((∑ k : Fin 256, x (ix3 (0 : Fin 1) n k) * w (ix2 k e)) + b (ix1 e)) (Ideal.ofBits .f32 0x00000000#32) := by
  have hJ : J = ix3 (0 : Fin 1) n e := funext fun a => Fin.ext (by
    match a with
    | ⟨0, _⟩ => have h : (J 0).val < 1 := (J 0).isLt; show (J 0).val = 0; omega
    | ⟨1, _⟩ => exact hn
    | ⟨2, _⟩ => exact he)
  rw [hJ]
  exact projK_block_apply x w b 0 n e

/-- The specification's projection at an index with batch `β`, row `n` and feature `e`. -/
theorem spec_proj_at (X : Cert.Spec.SX.Idx → EReal) (W : Cert.Spec.SW.Idx → EReal) (B : Cert.Spec.SB.Idx → EReal)
    (i : Cert.Spec.SX.Idx) (β : Fin 8) (n : Fin 2048) (e : Fin 256)
    (hβ : (i 0).val = β.val) (hn : (i 1).val = n.val) (he : (i 2).val = e.val) :
    Cert.Spec.proj X W B i = Cert.Spec.projAt X W B β n e := by
  have hi : i = ix3 β n e := funext fun a => Fin.ext (by
    match a with
    | ⟨0, _⟩ => exact hβ
    | ⟨1, _⟩ => exact hn
    | ⟨2, _⟩ => exact he)
  rw [hi]
  rfl

/-- What point `t` writes back of the queries is block `t` of the specification's projection. -/
theorem flushed0_q (c : Dev nD) (t : Fin cfg0.N) :
    (dat0 (F := Ideal) V c).flushed 5 t
      = ((cfg0.win 5).blk t).view.read (Elt Ideal) (Cert.Spec.proj (V c main_arg0) (V c main_arg1) (V c main_arg2)) := by
  show (cfg0.win 5).cut (grid0.coords t) ((dat0 V c).after 5 t) = _
  rw [after0_5]
  unfold out0_5
  rw [View.canon_unit_zero zeros3_proj]
  simp only [View.ld_unit_zero (S := S1x2048x256) zeros3_proj, View.ld_unit_zero (S := S256x256) zeros2_proj, View.ld_unit_zero (S := S256) zeros1_proj]
  obtain ⟨-, -, -, -, -, ⟨e0, e1, e2⟩, -⟩ := idx_facts0 t
  have hN : cfg0.N = 8 := N_0
  have hb : t.val < 8 := by have := t.isLt; omega
  funext j
  have hj0 : (j 0).val < 1 := (j 0).isLt
  have hj1 : (j 1).val < 2048 := (j 1).isLt
  have hj2 : (j 2).val < 256 := (j 2).isLt
  rw [View.read_apply]
  refine (projQ_block_at _ _ _ _ ⟨(j 1).val, hj1⟩ ⟨(j 2).val, hj2⟩ rfl rfl).trans ?_
  refine Eq.trans ?_ (spec_proj_at _ _ _ _ ⟨t.val, hb⟩ ⟨(j 1).val, hj1⟩ ⟨(j 2).val, hj2⟩ ?_ ?_ ?_).symm
  · unfold Cert.Spec.projAt
    refine congrArg₂ max (congrArg₂ (· + ·) (Finset.sum_congr rfl fun k _ => ?_) ?_) rfl
    · rw [iblk0_X V c t ⟨t.val, hb⟩ rfl, iblk0_Wq V c t]
    · exact iblk0_bq V c t _
  · show win0_5.index t 0 * 1 + 1 * (j 0).val = t.val; rw [e0]; omega
  · show win0_5.index t 1 * 2048 + 1 * (j 1).val = (j 1).val; rw [e1]; omega
  · show win0_5.index t 2 * 256 + 1 * (j 2).val = (j 2).val; rw [e2]; omega

/-- What point `t` writes back of the keys is block `t` of the specification's projection with the keys' weights and bias. -/
theorem flushed0_k (c : Dev nD) (t : Fin cfg0.N) :
    (dat0 (F := Ideal) V c).flushed 6 t
      = ((cfg0.win 6).blk t).view.read (Elt Ideal) (Cert.Spec.proj (V c main_arg0) (V c main_arg3) (V c main_arg4)) := by
  show (cfg0.win 6).cut (grid0.coords t) ((dat0 V c).after 6 t) = _
  rw [after0_6]
  unfold out0_6
  rw [View.canon_unit_zero zeros3_proj]
  simp only [View.ld_unit_zero (S := S1x2048x256) zeros3_proj, View.ld_unit_zero (S := S256x256) zeros2_proj, View.ld_unit_zero (S := S256) zeros1_proj]
  obtain ⟨-, -, -, -, -, -, ⟨e0, e1, e2⟩⟩ := idx_facts0 t
  have hN : cfg0.N = 8 := N_0
  have hb : t.val < 8 := by have := t.isLt; omega
  funext j
  have hj0 : (j 0).val < 1 := (j 0).isLt
  have hj1 : (j 1).val < 2048 := (j 1).isLt
  have hj2 : (j 2).val < 256 := (j 2).isLt
  rw [View.read_apply]
  refine (projK_block_at _ _ _ _ ⟨(j 1).val, hj1⟩ ⟨(j 2).val, hj2⟩ rfl rfl).trans ?_
  refine Eq.trans ?_ (spec_proj_at _ _ _ _ ⟨t.val, hb⟩ ⟨(j 1).val, hj1⟩ ⟨(j 2).val, hj2⟩ ?_ ?_ ?_).symm
  · unfold Cert.Spec.projAt
    refine congrArg₂ max (congrArg₂ (· + ·) (Finset.sum_congr rfl fun k _ => ?_) ?_) rfl
    · rw [iblk0_X V c t ⟨t.val, hb⟩ rfl, iblk0_Wk V c t]
    · exact iblk0_bk V c t _
  · show win0_6.index t 0 * 1 + 1 * (j 0).val = t.val; rw [e0]; omega
  · show win0_6.index t 1 * 2048 + 1 * (j 1).val = (j 1).val; rw [e1]; omega
  · show win0_6.index t 2 * 256 + 1 * (j 2).val = (j 2).val; rw [e2]; omega

/-- An index of the queries' array is in point `t`'s block iff each coordinate is in the block's range on its axis. -/
theorem mem_blk0_q (t : Fin cfg0.N) (i : S8x2048x256.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v0_0).slice (win0_5.rect t)).set ↔ _
  rw [View.set_slice_whole, Rect.mem_set_unit]
  exact Iff.rfl

/-- The same for the keys' array. -/
theorem mem_blk0_k (t : Fin cfg0.N) (i : S8x2048x256.Idx) :
    i ∈ ((cfg0.win 6).blk t).view.set ↔ ∀ a : Fin 3, win0_6.index t a * S1x2048x256.size a ≤ (i a).val ∧ (i a).val < win0_6.index t a * S1x2048x256.size a + S1x2048x256.size a := by
  show i ∈ ((View.whole main_v0_1).slice (win0_6.rect t)).set ↔ _
  rw [View.set_slice_whole, Rect.mem_set_unit]
  exact Iff.rfl

/-- Index `(b, n, e)` of the queries' array is in the block of point `b`. -/
theorem cover0_q (i : S8x2048x256.Idx) :
    ∃ t : Fin cfg0.N, (cfg0.win 5).flush t = true ∧ i ∈ ((cfg0.win 5).blk t).view.set := by
  have hN : cfg0.N = 8 := N_0
  have h0 : (i 0).val < 8 := (i 0).isLt
  have h1 : (i 1).val < 2048 := (i 1).isLt
  have h2 : (i 2).val < 256 := (i 2).isLt
  obtain ⟨t, ht⟩ : ∃ t : Fin cfg0.N, t.val = (i 0).val := ⟨⟨(i 0).val, by omega⟩, rfl⟩
  obtain ⟨-, -, -, -, -, ⟨e0, e1, e2⟩, -⟩ := idx_facts0 t
  refine ⟨t, flush0_5 t, ?_⟩
  rw [mem_blk0_q]
  intro a
  match a with
  | ⟨0, _⟩ => show win0_5.index t 0 * 1 ≤ (i 0).val ∧ (i 0).val < win0_5.index t 0 * 1 + 1; rw [e0]; omega
  | ⟨1, _⟩ => show win0_5.index t 1 * 2048 ≤ (i 1).val ∧ (i 1).val < win0_5.index t 1 * 2048 + 2048; rw [e1]; omega
  | ⟨2, _⟩ => show win0_5.index t 2 * 256 ≤ (i 2).val ∧ (i 2).val < win0_5.index t 2 * 256 + 256; rw [e2]; omega

/-- Index `(b, n, e)` of the keys' array is in the block of point `b`. -/
theorem cover0_k (i : S8x2048x256.Idx) :
    ∃ t : Fin cfg0.N, (cfg0.win 6).flush t = true ∧ i ∈ ((cfg0.win 6).blk t).view.set := by
  have hN : cfg0.N = 8 := N_0
  have h0 : (i 0).val < 8 := (i 0).isLt
  have h1 : (i 1).val < 2048 := (i 1).isLt
  have h2 : (i 2).val < 256 := (i 2).isLt
  obtain ⟨t, ht⟩ : ∃ t : Fin cfg0.N, t.val = (i 0).val := ⟨⟨(i 0).val, by omega⟩, rfl⟩
  obtain ⟨-, -, -, -, -, -, ⟨e0, e1, e2⟩⟩ := idx_facts0 t
  refine ⟨t, flush0_6 t, ?_⟩
  rw [mem_blk0_k]
  intro a
  match a with
  | ⟨0, _⟩ => show win0_6.index t 0 * 1 ≤ (i 0).val ∧ (i 0).val < win0_6.index t 0 * 1 + 1; rw [e0]; omega
  | ⟨1, _⟩ => show win0_6.index t 1 * 2048 ≤ (i 1).val ∧ (i 1).val < win0_6.index t 1 * 2048 + 2048; rw [e1]; omega
  | ⟨2, _⟩ => show win0_6.index t 2 * 256 ≤ (i 2).val ∧ (i 2).val < win0_6.index t 2 * 256 + 256; rw [e2]; omega

end Projections

/-- The queries' array after region 0. -/
theorem final_q (c : Dev nD) :
    (dat0 (F := Ideal) V c).arrAt 5 cfg0.N = Cert.Spec.proj (V c main_arg0) (V c main_arg1) (V c main_arg2) := by
  exact (dat0 (F := Ideal) V c).arrAt_eq_of_cover 5 _ (fun t _ => flushed0_q V c t) cover0_q

/-- The keys' array after region 0. -/
theorem final_k (c : Dev nD) :
    (dat0 (F := Ideal) V c).arrAt 6 cfg0.N = Cert.Spec.proj (V c main_arg0) (V c main_arg3) (V c main_arg4) := by
  exact (dat0 (F := Ideal) V c).arrAt_eq_of_cover 6 _ (fun t _ => flushed0_k V c t) cover0_k

end Cert.KernelIdeal.Hand

end
-- ==== Proof.KI.Value1.lean ====
/-
  What region 1 leaves in its output array, over the extended reals: the specification's result of the two
  projection arrays it is entered with.
-/
import proofs.«134656_j32298154066180_1_alg».proof.Proof.KI.Data
import proofs.«134656_j32298154066180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

open Idealize.ShloMosaic.ValueIdx

/-! ## The product of two blocks at an index

The kernel's product contracts the second axis of both operands: entry (p, q) of the product of x and y is the
sum over d of x (p, d) * y (q, d). -/

theorem attn_lhs_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem attn_lhs_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem attn_rhs_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem attn_rhs_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- The product into a zero accumulator, at (p, q). -/
theorem attn_mm_apply (x y : FVec Ideal S512x256 .bf16) (p q : Fin 512) :
    matmul dot_S512x256_S512x256_S512x512_1_1_0_0_n_n none x y (constant (F := Ideal) S512x512 .f32 0x00000000#32) (ix2 p q)
      = ∑ d : Fin 256, x (ix2 p d) * y (ix2 q d) := by
  show FloatOps.matmul dot_S512x256_S512x256_S512x512_1_1_0_0_n_n none x y (constant (F := Ideal) S512x512 .f32 0x00000000#32) (ix2 p q) = _
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 p q) ((contrEquiv1 dot_S512x256_S512x256_S512x512_1_1_0_0_n_n 256 rfl rfl).symm k) = ix2 p k := funext fun a => Fin.ext (by
    match a with
    | ⟨0, _⟩ => exact attn_lhs_0 _ _
    | ⟨1, _⟩ => exact (attn_lhs_1 _ _).trans hk)
  have er : dot_S512x256_S512x256_S512x512_1_1_0_0_n_n.rhsIdx (ix2 p q) ((contrEquiv1 dot_S512x256_S512x256_S512x512_1_1_0_0_n_n 256 rfl rfl).symm k) = ix2 q k := funext fun a => Fin.ext (by
    match a with
    | ⟨0, _⟩ => exact attn_rhs_0 _ _
    | ⟨1, _⟩ => exact (attn_rhs_1 _ _).trans hk)
  rw [el, er]

/-! ## The payloads at an index -/

/-- A block with its leading unit axis dropped, at (p, d). -/
theorem attn_drop_apply (v : FVec Ideal S1x512x256 .bf16) (p : Fin 512) (d : Fin 256) :
    (shapeCast S512x256 v shapeCasts_S1x512x256_S512x256 : FVec Ideal S512x256 .bf16) (ix2 p d) = v (ix3 (0 : Fin 1) p d) :=
  shapeCast_1ab_ab_apply v shapeCasts_S1x512x256_S512x256 p d

/-- The score tile of two blocks at (p, q): row p of the first against row q of the second. -/
theorem attn_score_tile_apply (a b : FVec Ideal S1x512x256 .bf16) (p q : Fin 512) :
    matmul dot_S512x256_S512x256_S512x512_1_1_0_0_n_n none
        (shapeCast S512x256 a shapeCasts_S1x512x256_S512x256 : FVec Ideal S512x256 .bf16)
        (shapeCast S512x256 b shapeCasts_S1x512x256_S512x256 : FVec Ideal S512x256 .bf16)
        (constant (F := Ideal) S512x512 .f32 0x00000000#32) (ix2 p q)
      = ∑ d : Fin 256, a (ix3 (0 : Fin 1) p d) * b (ix3 (0 : Fin 1) q d) :=
  (attn_mm_apply _ _ p q).trans (Finset.sum_congr rfl fun d _ => congrArg₂ (· * ·) (attn_drop_apply a p d) (attn_drop_apply b q d))

/-- The pointwise tail of the symmetrized weights: from the two score tiles A and B, at (p, q), half the sum of the
    weight of A (p, q) and the weight of B (q, p). -/
theorem attn_sym_tail_apply (A B : FVec Ideal S512x512 .f32) (p q : Fin 512) :
    mulf (broadcast S512x512 (Scalar.ofBits (F := Ideal) .f32 0x3F000000#32))
        (addf (logistic (mulf A (broadcast S512x512 (Scalar.ofBits (F := Ideal) .f32 0x3D800000#32))))
          (transpose S512x512 [1, 0] (logistic (mulf B (broadcast S512x512 (Scalar.ofBits (F := Ideal) .f32 0x3D800000#32))))
            transposes_S512x512_p1_0_S512x512)) (ix2 p q)
      = Ideal.ofBits .f32 0x3F000000#32 *
          (Ideal.logistic (A (ix2 p q) * Ideal.ofBits .f32 0x3D800000#32)
            + Ideal.logistic (B (ix2 q p) * Ideal.ofBits .f32 0x3D800000#32)) := by
  show Ideal.ofBits .f32 0x3F000000#32 *
      (Ideal.logistic (A (ix2 p q) * Ideal.ofBits .f32 0x3D800000#32)
        + transpose S512x512 [1, 0] (logistic (mulf B (broadcast S512x512 (Scalar.ofBits (F := Ideal) .f32 0x3D800000#32))))
            transposes_S512x512_p1_0_S512x512 (ix2 p q)) = _
  rw [transpose_ix2_apply]
  rfl

/-- The symmetrized weights of one tile pair at (p, q): with the row tile's queries qi and keys ki and the column tile's
    queries qj and keys kj. -/
theorem k1_pay1_apply (qi kj qj ki : Vec Ideal S1x512x256 .bf16) (p q : Fin 512) :
    k1_pay1 qi kj qj ki (ix2 p q)
      = Ideal.ofBits .f32 0x3F000000#32 *
          (Ideal.logistic ((∑ d : Fin 256, qi (ix3 (0 : Fin 1) p d) * kj (ix3 (0 : Fin 1) q d)) * Ideal.ofBits .f32 0x3D800000#32)
            + Ideal.logistic ((∑ d : Fin 256, qj (ix3 (0 : Fin 1) q d) * ki (ix3 (0 : Fin 1) p d)) * Ideal.ofBits .f32 0x3D800000#32)) := by
  unfold k1_pay1
  refine (attn_sym_tail_apply _ _ p q).trans ?_
  rw [attn_score_tile_apply, attn_score_tile_apply]

/-- Off the diagonal tiles the stored block is the symmetrized weights under a leading unit axis. -/
theorem k1_pay3_apply (qi kj qj ki : Vec Ideal S1x512x256 .bf16) (u : Fin 1) (p q : Fin 512) :
    k1_pay3 qi kj qj ki (ix3 u p q) = k1_pay1 qi kj qj ki (ix2 p q) := by
  unfold k1_pay3
  exact shapeCast_ab_1ab_apply _ shapeCasts_S512x512_S1x512x512 u p q

/-- The two coordinate words of a tile agree exactly when the coordinates do. -/
theorem attn_iota_eq_iff (p q : Fin 512) : (BitVec.ofNat 32 p.val = BitVec.ofNat 32 q.val) ↔ p = q := by
  constructor
  · intro h
    have h' := congrArg BitVec.toNat h
    simp only [BitVec.toNat_ofNat] at h'
    have hp := p.isLt
    have hq := q.isLt
    apply Fin.ext
    omega
  · rintro rfl; rfl

/-- On a diagonal tile the stored block is the symmetrized weights with the tile's diagonal cleared. -/
theorem k1_pay2_apply (qi kj qj ki : Vec Ideal S1x512x256 .bf16) (u : Fin 1) (p q : Fin 512) :
    k1_pay2 qi kj qj ki (ix3 u p q) = if p = q then 0 else k1_pay1 qi kj qj ki (ix2 p q) := by
  unfold k1_pay2
  refine (shapeCast_ab_1ab_apply _ shapeCasts_S512x512_S1x512x512 u p q).trans ?_
  show Scalar.select (IntOp.cmpi .eq (iota .tc S512x512 32 [0] iota_S512x512_d0_w32 (ix2 p q)) (iota .tc S512x512 32 [1] iota_S512x512_d1_w32 (ix2 p q)))
      (Ideal.ofBits .f32 0x00000000#32) (k1_pay1 qi kj qj ki (ix2 p q)) = _
  rw [iota_single_apply, iota_single_apply, Ideal.ofBits_zero_f32]
  show (if BitVec.ofBool (BitVec.ofNat 32 p.val == BitVec.ofNat 32 q.val) = 1#1 then (0 : EReal) else k1_pay1 qi kj qj ki (ix2 p q)) = _
  by_cases h : p = q
  · subst h
    rw [if_pos rfl, show (BitVec.ofNat 32 p.val == BitVec.ofNat 32 p.val) = true from beq_self_eq_true _]
    rfl
  · have hne : BitVec.ofNat 32 p.val ≠ BitVec.ofNat 32 q.val := fun e => h ((attn_iota_eq_iff p q).mp e)
    rw [if_neg h, beq_false_of_ne hne]
    rfl

/-! ## One tile pair against the specification

With the four loaded blocks known to be rows of the two projection arrays Q and K — the row tile's rows 512 i + p and
the column tile's rows 512 j + q of batch b — the stored block is the specification's result at those rows. -/

/-- Two rows given by tile and offset are the same row exactly when tile and offset agree. -/
theorem attn_row_eq_iff (i j : ℕ) (p q : Fin 512) (h1 : 512 * i + p.val < 2048) (h2 : 512 * j + q.val < 2048) :
    ((⟨512 * i + p.val, h1⟩ : Fin 2048) = ⟨512 * j + q.val, h2⟩) ↔ (i = j ∧ p = q) := by
  rw [Fin.mk.injEq]
  constructor
  · intro h
    exact ⟨by omega, Fin.ext (by omega)⟩
  · rintro ⟨rfl, rfl⟩; rfl

/-- The symmetrized weights of a tile pair are the specification's, row by row. -/
theorem attn_tile_apply (Q K : Cert.Spec.SX.Idx → EReal) (qi kj qj ki : Vec Ideal S1x512x256 .bf16)
    (b i j : ℕ) (hb : b < 8) (hi : i < 4) (hj : j < 4)
    (hqi : ∀ (p : Fin 512) (d : Fin 256), qi (ix3 (0 : Fin 1) p d) = Q (ix3 (⟨b, hb⟩ : Fin 8) (⟨512 * i + p.val, by omega⟩ : Fin 2048) d))
    (hkj : ∀ (p : Fin 512) (d : Fin 256), kj (ix3 (0 : Fin 1) p d) = K (ix3 (⟨b, hb⟩ : Fin 8) (⟨512 * j + p.val, by omega⟩ : Fin 2048) d))
    (hqj : ∀ (p : Fin 512) (d : Fin 256), qj (ix3 (0 : Fin 1) p d) = Q (ix3 (⟨b, hb⟩ : Fin 8) (⟨512 * j + p.val, by omega⟩ : Fin 2048) d))
    (hki : ∀ (p : Fin 512) (d : Fin 256), ki (ix3 (0 : Fin 1) p d) = K (ix3 (⟨b, hb⟩ : Fin 8) (⟨512 * i + p.val, by omega⟩ : Fin 2048) d))
    (p q : Fin 512) :
    k1_pay1 qi kj qj ki (ix2 p q)
      = Cert.Spec.sym Q K (⟨b, hb⟩ : Fin 8) (⟨512 * i + p.val, by omega⟩ : Fin 2048) (⟨512 * j + q.val, by omega⟩ : Fin 2048) := by
  rw [k1_pay1_apply]
  unfold Cert.Spec.sym Cert.Spec.weight Cert.Spec.score
  simp only [hqi, hkj, hqj, hki]

/-- Where the two tiles coincide the stored block, its diagonal cleared, is the specification's result. -/
theorem attn_blockA_apply (Q K : Cert.Spec.SX.Idx → EReal) (qi kj qj ki : Vec Ideal S1x512x256 .bf16)
    (b i j : ℕ) (hb : b < 8) (hi : i < 4) (hj : j < 4) (hij : i = j)
    (hqi : ∀ (p : Fin 512) (d : Fin 256), qi (ix3 (0 : Fin 1) p d) = Q (ix3 (⟨b, hb⟩ : Fin 8) (⟨512 * i + p.val, by omega⟩ : Fin 2048) d))
    (hkj : ∀ (p : Fin 512) (d : Fin 256), kj (ix3 (0 : Fin 1) p d) = K (ix3 (⟨b, hb⟩ : Fin 8) (⟨512 * j + p.val, by omega⟩ : Fin 2048) d))
    (hqj : ∀ (p : Fin 512) (d : Fin 256), qj (ix3 (0 : Fin 1) p d) = Q (ix3 (⟨b, hb⟩ : Fin 8) (⟨512 * j + p.val, by omega⟩ : Fin 2048) d))
    (hki : ∀ (p : Fin 512) (d : Fin 256), ki (ix3 (0 : Fin 1) p d) = K (ix3 (⟨b, hb⟩ : Fin 8) (⟨512 * i + p.val, by omega⟩ : Fin 2048) d))
    (u : Fin 1) (p q : Fin 512) :
    k1_pay2 qi kj qj ki (ix3 u p q)
      = Cert.Spec.attn Q K (ix3 (⟨b, hb⟩ : Fin 8) (⟨512 * i + p.val, by omega⟩ : Fin 2048) (⟨512 * j + q.val, by omega⟩ : Fin 2048)) := by
  rw [k1_pay2_apply]
  show _ = Cert.Spec.attnAt Q K (⟨b, hb⟩ : Fin 8) (⟨512 * i + p.val, by omega⟩ : Fin 2048) (⟨512 * j + q.val, by omega⟩ : Fin 2048)
  unfold Cert.Spec.attnAt
  by_cases hpq : p = q
  · rw [if_pos hpq, if_pos ((attn_row_eq_iff i j p q _ _).mpr ⟨hij, hpq⟩)]
  · rw [if_neg hpq, if_neg (fun e => hpq ((attn_row_eq_iff i j p q _ _).mp e).2)]
    exact attn_tile_apply Q K qi kj qj ki b i j hb hi hj hqi hkj hqj hki p q

/-- Where they differ the stored block is the specification's result: no entry of it is on the diagonal. -/
theorem attn_blockB_apply (Q K : Cert.Spec.SX.Idx → EReal) (qi kj qj ki : Vec Ideal S1x512x256 .bf16)
    (b i j : ℕ) (hb : b < 8) (hi : i < 4) (hj : j < 4) (hij : ¬ i = j)
    (hqi : ∀ (p : Fin 512) (d : Fin 256), qi (ix3 (0 : Fin 1) p d) = Q (ix3 (⟨b, hb⟩ : Fin 8) (⟨512 * i + p.val, by omega⟩ : Fin 2048) d))
    (hkj : ∀ (p : Fin 512) (d : Fin 256), kj (ix3 (0 : Fin 1) p d) = K (ix3 (⟨b, hb⟩ : Fin 8) (⟨512 * j + p.val, by omega⟩ : Fin 2048) d))
    (hqj : ∀ (p : Fin 512) (d : Fin 256), qj (ix3 (0 : Fin 1) p d) = Q (ix3 (⟨b, hb⟩ : Fin 8) (⟨512 * j + p.val, by omega⟩ : Fin 2048) d))
    (hki : ∀ (p : Fin 512) (d : Fin 256), ki (ix3 (0 : Fin 1) p d) = K (ix3 (⟨b, hb⟩ : Fin 8) (⟨512 * i + p.val, by omega⟩ : Fin 2048) d))
    (u : Fin 1) (p q : Fin 512) :
    k1_pay3 qi kj qj ki (ix3 u p q)
      = Cert.Spec.attn Q K (ix3 (⟨b, hb⟩ : Fin 8) (⟨512 * i + p.val, by omega⟩ : Fin 2048) (⟨512 * j + q.val, by omega⟩ : Fin 2048)) := by
  rw [k1_pay3_apply]
  show _ = Cert.Spec.attnAt Q K (⟨b, hb⟩ : Fin 8) (⟨512 * i + p.val, by omega⟩ : Fin 2048) (⟨512 * j + q.val, by omega⟩ : Fin 2048)
  unfold Cert.Spec.attnAt
  rw [if_neg (fun e => hij ((attn_row_eq_iff i j p q _ _).mp e).1)]
  exact attn_tile_apply Q K qi kj qj ki b i j hb hi hj hqi hkj hqj hki p q

/-! ## The blocks of a point

A point has coordinates (b, i, j): batch, row tile, column tile. Its windows onto the queries and the keys sit at block
(b, i, 0) and (b, j, 0), its output block at (b, i, j); the body's first branch is taken exactly when i = j. -/

theorem attn_point_facts : ∀ t : Fin cfg1.N,
    (win1_0.index t (0 : Fin 3) = (grid1.coords t 0).val ∧ win1_0.index t (1 : Fin 3) = (grid1.coords t 1).val ∧ win1_0.index t (2 : Fin 3) = 0)
    ∧ (win1_1.index t (0 : Fin 3) = (grid1.coords t 0).val ∧ win1_1.index t (1 : Fin 3) = (grid1.coords t 2).val ∧ win1_1.index t (2 : Fin 3) = 0)
    ∧ (win1_2.index t (0 : Fin 3) = (grid1.coords t 0).val ∧ win1_2.index t (1 : Fin 3) = (grid1.coords t 2).val ∧ win1_2.index t (2 : Fin 3) = 0)
    ∧ (win1_3.index t (0 : Fin 3) = (grid1.coords t 0).val ∧ win1_3.index t (1 : Fin 3) = (grid1.coords t 1).val ∧ win1_3.index t (2 : Fin 3) = 0)
    ∧ (win1_4.index t (0 : Fin 3) = (grid1.coords t 0).val ∧ win1_4.index t (1 : Fin 3) = (grid1.coords t 1).val ∧ win1_4.index t (2 : Fin 3) = (grid1.coords t 2).val)
    ∧ (grid1.coords t 0).val < 8 ∧ (grid1.coords t 1).val < 4 ∧ (grid1.coords t 2).val < 4
    ∧ (k1_cond1 (grid1.coords t) = 1#1 ↔ (grid1.coords t 1).val = (grid1.coords t 2).val) :=
  (by decide +kernel : ∀ t : Fin grid1.N, _)

/-- Every block of the output array is some point's. -/
theorem attn_point_onto : ∀ (b : Fin 8) (i j : Fin 4), ∃ t : Fin cfg1.N,
    win1_4.index t (0 : Fin 3) = b.val ∧ win1_4.index t (1 : Fin 3) = i.val ∧ win1_4.index t (2 : Fin 3) = j.val :=
  (by decide +kernel : ∀ (b : Fin 8) (i j : Fin 4), ∃ t : Fin grid1.N,
    win1_4.index t (0 : Fin 3) = b.val ∧ win1_4.index t (1 : Fin 3) = i.val ∧ win1_4.index t (2 : Fin 3) = j.val)

theorem attn_hz3 : (![0, 0, 0] : Fin 3 → Nat) = fun _ => 0 := funext fun a => by fin_cases a <;> rfl

/-- The row tile's queries: window 0's block at a point, row by row. -/
theorem iblk1_0_apply (c : Dev nD) (t : Fin cfg1.N) (b i : ℕ) (hb : b < 8) (hi : i < 4)
    (h0 : win1_0.index t (0 : Fin 3) = b) (h1 : win1_0.index t (1 : Fin 3) = i) (h2 : win1_0.index t (2 : Fin 3) = 0)
    (p : Fin 512) (d : Fin 256) :
    (iblk1 (F := Ideal) V c 0 t : Vec Ideal S1x512x256 .bf16) (ix3 (0 : Fin 1) p d)
      = (V c main_v0_0 : Cert.Spec.SX.Idx → EReal) (ix3 (⟨b, hb⟩ : Fin 8) (⟨512 * i + p.val, by omega⟩ : Fin 2048) d) := by
  unfold iblk1
  rw [View.read_apply]
  show V c main_v0_0 _ = V c main_v0_0 _
  congr 1
  funext a
  apply Fin.ext
  match a with
  | ⟨0, _⟩ => show win1_0.index t (0 : Fin 3) * 1 + 1 * 0 = b; omega
  | ⟨1, _⟩ => show win1_0.index t (1 : Fin 3) * 512 + 1 * p.val = 512 * i + p.val; omega
  | ⟨2, _⟩ => show win1_0.index t (2 : Fin 3) * 256 + 1 * d.val = d.val; omega

/-- The column tile's keys: window 1's block. -/
theorem iblk1_1_apply (c : Dev nD) (t : Fin cfg1.N) (b j : ℕ) (hb : b < 8) (hj : j < 4)
    (h0 : win1_1.index t (0 : Fin 3) = b) (h1 : win1_1.index t (1 : Fin 3) = j) (h2 : win1_1.index t (2 : Fin 3) = 0)
    (p : Fin 512) (d : Fin 256) :
    (iblk1 (F := Ideal) V c 1 t : Vec Ideal S1x512x256 .bf16) (ix3 (0 : Fin 1) p d)
      = (V c main_v0_1 : Cert.Spec.SX.Idx → EReal) (ix3 (⟨b, hb⟩ : Fin 8) (⟨512 * j + p.val, by omega⟩ : Fin 2048) d) := by
  unfold iblk1
  rw [View.read_apply]
  show V c main_v0_1 _ = V c main_v0_1 _
  congr 1
  funext a
  apply Fin.ext
  match a with
  | ⟨0, _⟩ => show win1_1.index t (0 : Fin 3) * 1 + 1 * 0 = b; omega
  | ⟨1, _⟩ => show win1_1.index t (1 : Fin 3) * 512 + 1 * p.val = 512 * j + p.val; omega
  | ⟨2, _⟩ => show win1_1.index t (2 : Fin 3) * 256 + 1 * d.val = d.val; omega

/-- The column tile's queries: window 2's block. -/
theorem iblk1_2_apply (c : Dev nD) (t : Fin cfg1.N) (b j : ℕ) (hb : b < 8) (hj : j < 4)
    (h0 : win1_2.index t (0 : Fin 3) = b) (h1 : win1_2.index t (1 : Fin 3) = j) (h2 : win1_2.index t (2 : Fin 3) = 0)
    (p : Fin 512) (d : Fin 256) :
    (iblk1 (F := Ideal) V c 2 t : Vec Ideal S1x512x256 .bf16) (ix3 (0 : Fin 1) p d)
      = (V c main_v0_0 : Cert.Spec.SX.Idx → EReal) (ix3 (⟨b, hb⟩ : Fin 8) (⟨512 * j + p.val, by omega⟩ : Fin 2048) d) := by
  unfold iblk1
  rw [View.read_apply]
  show V c main_v0_0 _ = V c main_v0_0 _
  congr 1
  funext a
  apply Fin.ext
  match a with
  | ⟨0, _⟩ => show win1_2.index t (0 : Fin 3) * 1 + 1 * 0 = b; omega
  | ⟨1, _⟩ => show win1_2.index t (1 : Fin 3) * 512 + 1 * p.val = 512 * j + p.val; omega
  | ⟨2, _⟩ => show win1_2.index t (2 : Fin 3) * 256 + 1 * d.val = d.val; omega

/-- The row tile's keys: window 3's block. -/
theorem iblk1_3_apply (c : Dev nD) (t : Fin cfg1.N) (b i : ℕ) (hb : b < 8) (hi : i < 4)
    (h0 : win1_3.index t (0 : Fin 3) = b) (h1 : win1_3.index t (1 : Fin 3) = i) (h2 : win1_3.index t (2 : Fin 3) = 0)
    (p : Fin 512) (d : Fin 256) :
    (iblk1 (F := Ideal) V c 3 t : Vec Ideal S1x512x256 .bf16) (ix3 (0 : Fin 1) p d)
      = (V c main_v0_1 : Cert.Spec.SX.Idx → EReal) (ix3 (⟨b, hb⟩ : Fin 8) (⟨512 * i + p.val, by omega⟩ : Fin 2048) d) := by
  unfold iblk1
  rw [View.read_apply]
  show V c main_v0_1 _ = V c main_v0_1 _
  congr 1
  funext a
  apply Fin.ext
  match a with
  | ⟨0, _⟩ => show win1_3.index t (0 : Fin 3) * 1 + 1 * 0 = b; omega
  | ⟨1, _⟩ => show win1_3.index t (1 : Fin 3) * 512 + 1 * p.val = 512 * i + p.val; omega
  | ⟨2, _⟩ => show win1_3.index t (2 : Fin 3) * 256 + 1 * d.val = d.val; omega

/-- An entry of the output block of a point, in the array. -/
theorem attn_out_emb (t : Fin cfg1.N) (b i j : ℕ) (hb : b < 8) (hi : i < 4) (hj : j < 4)
    (h0 : win1_4.index t (0 : Fin 3) = b) (h1 : win1_4.index t (1 : Fin 3) = i) (h2 : win1_4.index t (2 : Fin 3) = j)
    (u : Fin 1) (p q : Fin 512) :
    (((cfg1.win 4).blk t).view.emb (ix3 u p q) : Cert.Spec.SO.Idx)
      = ix3 (⟨b, hb⟩ : Fin 8) (⟨512 * i + p.val, by omega⟩ : Fin 2048) (⟨512 * j + q.val, by omega⟩ : Fin 2048) := by
  funext a
  apply Fin.ext
  match a with
  | ⟨0, _⟩ => show win1_4.index t (0 : Fin 3) * 1 + 1 * u.val = b; omega
  | ⟨1, _⟩ => show win1_4.index t (1 : Fin 3) * 512 + 1 * p.val = 512 * i + p.val; omega
  | ⟨2, _⟩ => show win1_4.index t (2 : Fin 3) * 512 + 1 * q.val = 512 * j + q.val; omega

/-! ## From blocks to the array -/

/-- What a point writes back is its block of the specification's result. -/
theorem attn_flushed_eq (c : Dev nD) (t : Fin cfg1.N) :
    (dat1 (F := Ideal) V c).flushed 4 t
      = ((cfg1.win 4).blk t).view.read (Elt Ideal) (Cert.Spec.attn (V c main_v0_0) (V c main_v0_1)) := by
  obtain ⟨⟨a00, a01, a02⟩, ⟨a10, a11, a12⟩, ⟨a20, a21, a22⟩, ⟨a30, a31, a32⟩, ⟨a40, a41, a42⟩, hb, hi, hj, hcond⟩ := attn_point_facts t
  have hqi := iblk1_0_apply V c t _ _ hb hi a00 a01 a02
  have hkj := iblk1_1_apply V c t _ _ hb hj a10 a11 a12
  have hqj := iblk1_2_apply V c t _ _ hb hj a20 a21 a22
  have hki := iblk1_3_apply V c t _ _ hb hi a30 a31 a32
  show (cfg1.win 4).cut (grid1.coords t) ((dat1 (F := Ideal) V c).after 4 t) = _
  rw [after1_4]
  by_cases hc : k1_cond1 (grid1.coords t) = 1#1
  · rw [if_pos hc]
    unfold out1_4A
    rw [View.canon_unit_zero attn_hz3]
    simp only [View.ld_unit_zero (S := S1x512x256) attn_hz3]
    funext y
    obtain ⟨u, p, q, rfl⟩ : ∃ (u : Fin 1) (p q : Fin 512), y = ix3 u p q :=
      ⟨y 0, y 1, y 2, eq_ix3 (n0 := 1) (n1 := 512) (n2 := 512) y⟩
    show k1_pay2 (iblk1 V c 0 t) (iblk1 V c 1 t) (iblk1 V c 2 t) (iblk1 V c 3 t) (ix3 u p q)
      = Cert.Spec.attn (V c main_v0_0) (V c main_v0_1) (((cfg1.win 4).blk t).view.emb (ix3 u p q))
    rw [attn_out_emb t _ _ _ hb hi hj a40 a41 a42 u p q]
    exact attn_blockA_apply _ _ _ _ _ _ _ _ _ hb hi hj (hcond.mp hc) hqi hkj hqj hki u p q
  · rw [if_neg hc]
    unfold out1_4B
    rw [View.canon_unit_zero attn_hz3]
    simp only [View.ld_unit_zero (S := S1x512x256) attn_hz3]
    funext y
    obtain ⟨u, p, q, rfl⟩ : ∃ (u : Fin 1) (p q : Fin 512), y = ix3 u p q :=
      ⟨y 0, y 1, y 2, eq_ix3 (n0 := 1) (n1 := 512) (n2 := 512) y⟩
    show k1_pay3 (iblk1 V c 0 t) (iblk1 V c 1 t) (iblk1 V c 2 t) (iblk1 V c 3 t) (ix3 u p q)
      = Cert.Spec.attn (V c main_v0_0) (V c main_v0_1) (((cfg1.win 4).blk t).view.emb (ix3 u p q))
    rw [attn_out_emb t _ _ _ hb hi hj a40 a41 a42 u p q]
    exact attn_blockB_apply _ _ _ _ _ _ _ _ _ hb hi hj (fun e => hc (hcond.mpr e)) hqi hkj hqj hki u p q

/-- An index of the output array is in a point's block exactly when each coordinate is in the block's range. -/
theorem attn_mem_blk (t : Fin cfg1.N) (x : S8x2048x2048.Idx) :
    x ∈ ((cfg1.win 4).blk t).view.set
      ↔ ∀ a : Fin 3, win1_4.index t a * S1x512x512.size a ≤ (x a).val ∧ (x a).val < win1_4.index t a * S1x512x512.size a + S1x512x512.size a := by
  show x ∈ ((View.whole main_v1).slice (win1_4.rect t)).set ↔ _
  rw [View.set_slice_whole, Rect.mem_set_unit]
  exact Iff.rfl

/-- Every index of the output array is in the block of the point at its batch and its two tiles. -/
theorem attn_covered (x : S8x2048x2048.Idx) :
    ∃ t : Fin cfg1.N, (cfg1.win 4).flush t = true ∧ x ∈ ((cfg1.win 4).blk t).view.set := by
  have h0 : (x 0).val < 8 := (x 0).isLt
  have h1 : (x 1).val < 2048 := (x 1).isLt
  have h2 : (x 2).val < 2048 := (x 2).isLt
  obtain ⟨t, e0, e1, e2⟩ := attn_point_onto ⟨(x 0).val, h0⟩ ⟨(x 1).val / 512, by omega⟩ ⟨(x 2).val / 512, by omega⟩
  have e0' : win1_4.index t (0 : Fin 3) = (x 0).val := e0
  have e1' : win1_4.index t (1 : Fin 3) = (x 1).val / 512 := e1
  have e2' : win1_4.index t (2 : Fin 3) = (x 2).val / 512 := e2
  refine ⟨t, flush1_4 t, ?_⟩
  rw [attn_mem_blk]
  intro a
  match a with
  | ⟨0, _⟩ =>
    show win1_4.index t (0 : Fin 3) * 1 ≤ (x 0).val ∧ (x 0).val < win1_4.index t (0 : Fin 3) * 1 + 1
    omega
  | ⟨1, _⟩ =>
    show win1_4.index t (1 : Fin 3) * 512 ≤ (x 1).val ∧ (x 1).val < win1_4.index t (1 : Fin 3) * 512 + 512
    omega
  | ⟨2, _⟩ =>
    show win1_4.index t (2 : Fin 3) * 512 ≤ (x 2).val ∧ (x 2).val < win1_4.index t (2 : Fin 3) * 512 + 512
    omega

/-- The result array after region 1. -/
theorem final_o (c : Dev nD) :
    (dat1 (F := Ideal) V c).arrAt 4 cfg1.N = Cert.Spec.attn (V c main_v0_0) (V c main_v0_1) := by
  exact (dat1 (F := Ideal) V c).arrAt_eq_of_cover 4 (Cert.Spec.attn (V c main_v0_0) (V c main_v0_1))
    (fun t _ => attn_flushed_eq V c t) attn_covered

end Cert.KernelIdeal.Hand

end
-- ==== Proof.Consts.lean ====
/-
  The float constants the two programs spell, as the extended reals their bit patterns denote, and the one
  irrational-looking operation applied to a constant: the square root of 256, which is 16.
-/
import Idealize.ShloMosaic.PureOps.Ideal
import Idealize.ShloMosaic.PureOps.Ideal.Laws

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `256.0` denotes the real `256`. -/
theorem ofBits_256 : Ideal.ofBits .f32 0x43800000#32 = ((256 : ℝ) : EReal) := by
  simp [Ideal.ofBits, Ideal.ieee, -EReal.coe_mul]; norm_num

/-- The pattern of `0.0625` denotes the real `1/16`. -/
theorem ofBits_sixteenth : Ideal.ofBits .f32 0x3D800000#32 = ((1 / 16 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

/-- Dividing by the square root of 256 is multiplying by 1/16, on every extended real. -/
theorem div_sqrt_256 (x : EReal) :
    Ideal.div x (Ideal.sqrt (Ideal.ofBits .f32 0x43800000#32)) = x * Ideal.ofBits .f32 0x3D800000#32 := by
  rw [ofBits_256, sqrt_256, ofBits_sixteenth, Ideal.div_coe (by norm_num : (16 : ℝ) ≠ 0)]

end Cert.Consts

end
-- ==== Proof.RefSide.lean ====
/-
  The reference's result read index by index: each entry of the reference's output is the specification's function of
  the argument arrays.
-/
import proofs.«134656_j32298154066180_1_alg».proof.Proof.Gen.ReferenceIdeal.Read
import proofs.«134656_j32298154066180_1_alg».proof.Proof.Spec
import proofs.«134656_j32298154066180_1_alg».proof.Proof.Consts
import Idealize.ShloMosaic.Lib.ValueIdx
import Idealize.ShloMosaic.PureOps.Ideal.Laws

noncomputable section

namespace Cert.RefSide

open Idealize.ShloMosaic Idealize.ShloMosaic.TcCoe Idealize.SL.Sem
open Cert.ReferenceIdeal Cert.ReferenceIdeal.Read

open Idealize.ShloMosaic.ValueIdx

/-- The query projection: the reference's clamped affine map of the rows of the first argument is the specification's projection. -/
theorem projQ_eq (x0 : (⟨S8x2048x256, .f32⟩ : BufTy).Contents (Elt Ideal)) (x1 : (⟨S256x256, .f32⟩ : BufTy).Contents (Elt Ideal))
    (x2 : (⟨S256, .f32⟩ : BufTy).Contents (Elt Ideal)) :
    val_main_v4 (F := Ideal) x0 x1 x2 = Cert.Spec.proj x0 x1 x2 := by
  funext i
  obtain ⟨b, n, e, rfl⟩ : ∃ (b : Fin 8) (n : Fin 2048) (e : Fin 256), i = ix3 b n e := ⟨i 0, i 1, i 2, eq_ix3 i⟩
  rw [val_main_v4_apply, val_main_v3_apply, val_main_v0_apply, val_main_v2_apply, val_main_v1_apply,
    val_main_call0_v0_apply, val_main_call0_cst_apply]
  have hl : ∀ k : Fin 256, lidx_main_v0 (ix3 b n e) k = ix3 b n k := fun k =>
    funext fun a => match a with | ⟨0, _⟩ => rfl | ⟨1, _⟩ => rfl | ⟨2, _⟩ => rfl
  have hr : ∀ k : Fin 256, ridx_main_v0 (ix3 b n e) k = ix2 k e := fun k =>
    funext fun a => match a with | ⟨0, _⟩ => rfl | ⟨1, _⟩ => rfl
  have hb : idx_main_v1 (idx_main_v2 (ix3 b n e)) = ix1 e :=
    funext fun a => match a with | ⟨0, _⟩ => rfl
  simp only [hl, hr, hb, Ideal.maximumf_def, Ideal.addf_def, Ideal.ofBits_def]
  rfl

/-- The key projection, likewise. -/
theorem projK_eq (x0 : (⟨S8x2048x256, .f32⟩ : BufTy).Contents (Elt Ideal)) (x3 : (⟨S256x256, .f32⟩ : BufTy).Contents (Elt Ideal))
    (x4 : (⟨S256, .f32⟩ : BufTy).Contents (Elt Ideal)) :
    val_main_v9 (F := Ideal) x0 x3 x4 = Cert.Spec.proj x0 x3 x4 := by
  funext i
  obtain ⟨b, n, e, rfl⟩ : ∃ (b : Fin 8) (n : Fin 2048) (e : Fin 256), i = ix3 b n e := ⟨i 0, i 1, i 2, eq_ix3 i⟩
  rw [val_main_v9_apply, val_main_v8_apply, val_main_v5_apply, val_main_v7_apply, val_main_v6_apply,
    val_main_call1_v0_apply, val_main_call1_cst_apply]
  have hl : ∀ k : Fin 256, lidx_main_v5 (ix3 b n e) k = ix3 b n k := fun k =>
    funext fun a => match a with | ⟨0, _⟩ => rfl | ⟨1, _⟩ => rfl | ⟨2, _⟩ => rfl
  have hr : ∀ k : Fin 256, ridx_main_v5 (ix3 b n e) k = ix2 k e := fun k =>
    funext fun a => match a with | ⟨0, _⟩ => rfl | ⟨1, _⟩ => rfl
  have hb : idx_main_v6 (idx_main_v7 (ix3 b n e)) = ix1 e :=
    funext fun a => match a with | ⟨0, _⟩ => rfl
  simp only [hl, hr, hb, Ideal.maximumf_def, Ideal.addf_def, Ideal.ofBits_def]
  rfl

/-- The score stage: the batched contraction of the two projections over the feature axis. -/
theorem score_at (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (b : Fin 8) (n m : Fin 2048) :
    val_main_v10 (F := Ideal) x0 x1 x2 x3 x4 (ix3 b n m)
      = Cert.Spec.score (Cert.Spec.proj x0 x1 x2) (Cert.Spec.proj x0 x3 x4) b n m := by
  rw [val_main_v10_apply, projQ_eq, projK_eq]
  have hl : ∀ k : Fin 256, lidx_main_v10 (ix3 b n m) k = ix3 b n k := fun k =>
    funext fun a => match a with | ⟨0, _⟩ => rfl | ⟨1, _⟩ => rfl | ⟨2, _⟩ => rfl
  have hr : ∀ k : Fin 256, ridx_main_v10 (ix3 b n m) k = ix3 b m k := fun k =>
    funext fun a => match a with | ⟨0, _⟩ => rfl | ⟨1, _⟩ => rfl | ⟨2, _⟩ => rfl
  simp only [hl, hr]
  rfl

/-- The weight stage: one over one plus the exponential of minus the score over the square root of 256 is the logistic
    function of the score scaled by 1/16. -/
theorem weight_at (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (b : Fin 8) (n m : Fin 2048) :
    val_main_v19 (F := Ideal) x0 x1 x2 x3 x4 (ix3 b n m)
      = Cert.Spec.weight (Cert.Spec.score (Cert.Spec.proj x0 x1 x2) (Cert.Spec.proj x0 x3 x4) b n m) := by
  rw [val_main_v19_apply, val_main_v18_apply, val_main_cst_1_apply, val_main_v17_apply, val_main_v16_apply,
    val_main_cst_0_apply, val_main_v15_apply, val_main_v14_apply, val_main_v13_apply, val_main_v12_apply,
    val_main_v11_apply, val_main_cst_apply, score_at]
  simp only [Ideal.hostDivf_def, Ideal.hostUnary_exp_def, Ideal.hostUnary_sqrt_def, Ideal.hostNegf_def, Ideal.negf_def,
    Ideal.addf_def, Ideal.ofBits_def, Cert.Consts.ofBits_one, Cert.Consts.div_sqrt_256]
  rfl

/-- A word compared for equality with itself gives the set bit. -/
theorem cmpi_eq_self (a : BitVec 32) : IntOp.cmpi .eq a a = 1#1 := by
  show BitVec.ofBool (a == a) = 1#1
  rw [beq_self_eq_true]; rfl

/-- Two different words compared for equality give the clear bit. -/
theorem cmpi_eq_of_ne {a c : BitVec 32} (h : a ≠ c) : IntOp.cmpi .eq a c = 0#1 := by
  show BitVec.ofBool (a == c) = 0#1
  rw [beq_eq_false_iff_ne.mpr h]; rfl

/-- Two row numbers below 2048 are the same 32-bit word only if they are the same number. -/
theorem ofNat_inj_of_lt (n m : Fin 2048) (h : BitVec.ofNat 32 n.val = BitVec.ofNat 32 m.val) : n = m := by
  have := congrArg BitVec.toNat h
  simp only [BitVec.toNat_ofNat] at this
  apply Fin.ext
  have hn := n.isLt
  have hm := m.isLt
  omega

/-- The diagonal mask: one minus the indicator of equal row and column numbers is zero on the diagonal and one off it. -/
theorem mask_at (b : Fin 8) (n m : Fin 2048) :
    val_main_v33 (F := Ideal) (ix3 b n m) = if n = m then 0 else 1 := by
  rw [val_main_v33_apply, val_main_v32_apply, val_main_v31_apply, val_main_v30_apply, val_main_cst_3_apply,
    val_main_v29_apply, val_main_v28_apply, val_main_v27_apply, val_main_v24_apply, val_main_v26_apply,
    val_main_c_apply, val_main_v25_apply]
  show FloatOps.subf (FloatOps.ofBits (F := Ideal) .f32 0x3F800000#32)
      (FloatOps.uitofp (F := Ideal) .f32 (IntOp.cmpi .eq (IntOp.addi (BitVec.ofNat 32 n.val) 0#32) (BitVec.ofNat 32 m.val))) = _
  rw [Ideal.subf_def, Ideal.ofBits_def, Cert.Consts.ofBits_one]
  show (1 : EReal) - (((IntOp.cmpi .eq (IntOp.addi (BitVec.ofNat 32 n.val) 0#32) (BitVec.ofNat 32 m.val)).toNat : ℝ) : EReal) = _
  have hadd : IntOp.addi (BitVec.ofNat 32 n.val) 0#32 = BitVec.ofNat 32 n.val := BitVec.add_zero _
  rw [hadd]
  by_cases hnm : n = m
  · subst hnm
    rw [if_pos rfl, cmpi_eq_self]
    show (1 : EReal) - ((1 : ℕ) : ℝ) = 0
    rw [Nat.cast_one, EReal.coe_one, ← EReal.coe_one, ← EReal.coe_sub, sub_self, EReal.coe_zero]
  · rw [if_neg hnm]
    rw [cmpi_eq_of_ne (fun h => hnm (ofNat_inj_of_lt n m h))]
    show (1 : EReal) - ((0 : ℕ) : ℝ) = 1
    rw [Nat.cast_zero, EReal.coe_zero, sub_zero]

/-- The reference's last stage is the specification. -/
theorem result_eq (x0 : (⟨S8x2048x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) :
    val_main_v34 (F := Ideal) x0 x1 x2 x3 x4 = Cert.Spec.G x0 x1 x2 x3 x4 := by
  funext i
  obtain ⟨b, n, m, rfl⟩ : ∃ (b : Fin 8) (n : Fin 2048) (m : Fin 2048), i = ix3 b n m := ⟨i 0, i 1, i 2, eq_ix3 i⟩
  rw [val_main_v34_apply, val_main_v23_apply, val_main_v22_apply, val_main_cst_2_apply, val_main_v21_apply,
    val_main_v20_apply, mask_at]
  have ht : idx_main_v20 (ix3 b n m) = ix3 b m n :=
    funext fun a => match a with | ⟨0, _⟩ => rfl | ⟨1, _⟩ => rfl | ⟨2, _⟩ => rfl
  rw [ht, weight_at, weight_at]
  simp only [Ideal.mulf_def, Ideal.addf_def, Ideal.ofBits_def]
  show _ = Cert.Spec.attnAt (Cert.Spec.proj x0 x1 x2) (Cert.Spec.proj x0 x3 x4) b n m
  unfold Cert.Spec.attnAt Cert.Spec.sym
  by_cases hnm : n = m
  · rw [if_pos hnm, if_pos hnm, mul_zero]
  · rw [if_neg hnm, if_neg hnm, mul_one]

end Cert.RefSide

end
-- ==== Proof.lean ====
/-
  The certificate of the attention-weights kernel against its reference.

  The kernel computes the two projections `Q = relu (X · Wq + bq)`, `K = relu (X · Wk + bk)` in a first region, one batch
  per grid point, and in a second region, tile by tile, the half-sum of `logistic (Q Kᵀ / 16)` and its transpose with the
  diagonal cleared. The reference computes the same function with whole-array operations: it divides the scores by the
  square root of 256 where the kernel multiplies by 1/16, spells the logistic function as `1 / (1 + exp (-s))`, and clears
  the diagonal by multiplying with one minus the identity mask. Over the extended reals the two are one function of the
  argument arrays (`Cert.Spec.G`), with no use of the inputs' finiteness: the division by 16 is the product with 1/16 on
  every extended real, the logistic function is that expression by definition, and a product with zero is zero.

  The three frames: both kernel programs run their two regions to the end from any memory and leave the arguments as
  launched; the reference's run is its sequence of host operations. The idealization rewrote no operation, so the
  second-last claim asks nothing.
-/
import proofs.«134656_j32298154066180_1_alg».proof.Defs
import proofs.«134656_j32298154066180_1_alg».proof.Proof.Gen.Kernel
import proofs.«134656_j32298154066180_1_alg».proof.Proof.Gen.KernelIdeal
import proofs.«134656_j32298154066180_1_alg».proof.Proof.Gen.ReferenceIdeal
import proofs.«134656_j32298154066180_1_alg».proof.Proof.Gen.Pre_finite_inputs
import proofs.«134656_j32298154066180_1_alg».proof.Proof.Gen.ReferenceIdeal.Run
import proofs.«134656_j32298154066180_1_alg».proof.Proof.Gen.ReferenceIdeal.Read
import proofs.«134656_j32298154066180_1_alg».proof.Proof.KB.Run
import proofs.«134656_j32298154066180_1_alg».proof.Proof.KI.Run
import proofs.«134656_j32298154066180_1_alg».proof.Proof.KI.Value0
import proofs.«134656_j32298154066180_1_alg».proof.Proof.KI.Value1
import proofs.«134656_j32298154066180_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- What the idealized kernel leaves in its result array is the specification of the arguments: region 1's final
    contents are the specification's result of the two projection arrays it finds, and those are region 0's final
    contents, the specification's projections of the launch arrays. -/
theorem kernel_result (m : (ℓ : Loc Cert.KernelIdeal.nD Cert.KernelIdeal.τ Cert.KernelIdeal.sig) → Buf (Elt Ideal) ℓ) (c : Dev Cert.KernelIdeal.nD) :
    (Cert.KernelIdeal.Hand.dat1 (F := Ideal) (Cert.KernelIdeal.Hand.V1 m) c).arrAt 4 Cert.KernelIdeal.cfg1.N
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [Cert.KernelIdeal.Hand.final_o (Cert.KernelIdeal.Hand.V1 m) c, Cert.KernelIdeal.Hand.V1_q m c, Cert.KernelIdeal.Hand.V1_k m c,
    Cert.KernelIdeal.Hand.final_q (Cert.KernelIdeal.Hand.V0 m) c, Cert.KernelIdeal.Hand.final_k (Cert.KernelIdeal.Hand.V0 m) c]
  rfl

/-- Both idealized programs end with the specification's function of the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v34_eq (F := Ideal) _ _ _ _ _).trans ?_
    rw [Cert.RefSide.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
